-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x256 : Shape := ⟨2, ![8192, 256]⟩
abbrev S_ : Shape := ⟨0, ![]⟩

class Facts : Prop where
  bcast_S_S8192x256 : S_.BroadcastsInDim S8192x256 (![] : Fin 0 → Fin S8192x256.rank)
  reducesTo_S8192x256_S_d0_1 : S8192x256.ReducesTo [0, 1] S_
  h_S_ : 0 < S_.numel

variable [Facts]

def fn {F : FTy → Type} [FloatOps F] (main_arg0 : FVec F S8192x256 .f32) : IVec S_ 1 :=
  let main_v0 : FVec F S8192x256 .f32 := Host.absf main_arg0
  let main_cst : FVec F S_ .f32 := constant S_ .f32 0x7F800000#32
  let main_v1 : FVec F S8192x256 .f32 := broadcastInDim S8192x256 ![] bcast_S_S8192x256 main_cst
  let main_v2 : IVec S8192x256 1 := cmpf .olt main_v0 main_v1
  let main_c : IVec S_ 1 := constantI S_ 1 1#1
  let main_v3 : IVec S_ 1 := (fun x v => Host.reduce IntOp.andi x v reducesTo_S8192x256_S_d0_1 h_S_) main_v2 main_c
  main_v3
-- ==== Kernel.lean ====
abbrev S8192x256 : Shape := ⟨2, ![8192, 256]⟩
abbrev S_ : Shape := ⟨0, ![]⟩
abbrev S8192 : Shape := ⟨1, ![8192]⟩
abbrev S8192x1 : Shape := ⟨2, ![8192, 1]⟩
abbrev S1x8192 : Shape := ⟨2, ![1, 8192]⟩
abbrev S1x1 : Shape := ⟨2, ![1, 1]⟩
abbrev S512x256 : Shape := ⟨2, ![512, 256]⟩
abbrev S512x1 : Shape := ⟨2, ![512, 1]⟩
abbrev S1x512 : Shape := ⟨2, ![1, 512]⟩
abbrev S512x512 : Shape := ⟨2, ![512, 512]⟩
abbrev S512 : Shape := ⟨1, ![512]⟩
abbrev S1 : Shape := ⟨1, ![1]⟩

abbrev nBuf : Space → Nat
  | .hbm => 24
  | .vmem => 9
  | .smem => 0
  | _ => 0

abbrev bufTy : (tb : Table) → Fin (tcTables nBuf tb) → BufTy
  | .hbm, ⟨0, _⟩ => ⟨S8192x256, .f32⟩
  | .hbm, ⟨1, _⟩ => ⟨S8192x256, .f32⟩
  | .hbm, ⟨2, _⟩ => ⟨S_, .f32⟩
  | .hbm, ⟨3, _⟩ => ⟨S8192, .f32⟩
  | .hbm, ⟨4, _⟩ => ⟨S8192x1, .f32⟩
  | .hbm, ⟨5, _⟩ => ⟨S1x8192, .f32⟩
  | .hbm, ⟨6, _⟩ => ⟨S8192x256, .bf16⟩
  | .hbm, ⟨7, _⟩ => ⟨S1x1, .f32⟩
  | .hbm, ⟨8, _⟩ => ⟨S_, .f32⟩
  | .hbm, ⟨9, _⟩ => ⟨S_, .f32⟩
  | .hbm, ⟨10, _⟩ => ⟨S8192, .f32⟩
  | .hbm, ⟨11, _⟩ => ⟨S8192, .f32⟩
  | .hbm, ⟨12, _⟩ => ⟨S8192, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .local _ .vmem, ⟨0, _⟩ => ⟨S512x256, .bf16⟩
  | .local _ .vmem, ⟨1, _⟩ => ⟨S512x256, .bf16⟩
  | .local _ .vmem, ⟨2, _⟩ => ⟨S512x256, .bf16⟩
  | .local _ .vmem, ⟨3, _⟩ => ⟨S512x256, .bf16⟩
  | .local _ .vmem, ⟨4, _⟩ => ⟨S512x1, .f32⟩
  | .local _ .vmem, ⟨5, _⟩ => ⟨S512x1, .f32⟩
  | .local _ .vmem, ⟨6, _⟩ => ⟨S1x512, .f32⟩
  | .local _ .vmem, ⟨7, _⟩ => ⟨S1x512, .f32⟩
  | .local _ .vmem, ⟨8, _⟩ => ⟨S1x1, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst_0 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst_1 : Ref sig .tc := ⟨.hbm, 13, rfl⟩
abbrev main_v10 : Ref sig .tc := ⟨.hbm, 14, rfl⟩
abbrev main_cst_2 : Ref sig .tc := ⟨.hbm, 15, rfl⟩
abbrev main_v11 : Ref sig .tc := ⟨.hbm, 16, rfl⟩
abbrev main_cst_3 : Ref sig .tc := ⟨.hbm, 17, rfl⟩
abbrev main_v12 : Ref sig .tc := ⟨.hbm, 18, rfl⟩
abbrev main_cst_4 : Ref sig .tc := ⟨.hbm, 19, rfl⟩
abbrev main_v13 : Ref sig .tc := ⟨.hbm, 20, rfl⟩
abbrev main_v14 : Ref sig .tc := ⟨.hbm, 21, rfl⟩
abbrev main_cst_5 : Ref sig .tc := ⟨.hbm, 22, rfl⟩
abbrev main_v15 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8

abbrev nD : Nat := 1
abbrev τ : Topo := Topo.v7x

variable {F : FTy → Type} [FloatOps F]

abbrev grid0 : Pipeline.Grid := ⟨2, ![16, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

class Facts₀ : Prop where
  reducesTo_S8192x256_S8192_d1 : S8192x256.ReducesTo [1] S8192
  h_S_ : 0 < S_.numel
  shapeCasts_S8192_S8192x1 : S8192.ShapeCasts S8192x1
  shapeCasts_S8192_S1x8192 : S8192.ShapeCasts S1x8192
  bitsLt_bf16_f32 : FTy.bits .bf16 < FTy.bits .f32
  inb_S1x1_S1x1_0_0 : ∀ a, (![0, 0] : Fin 2 → Nat) a + S1x1.size a ≤ S1x1.size a
  h_S1x1 : 0 < S1x1.numel
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S512x1_S512x512 : S512x1.Broadcasts S512x512
  broadcasts_S1x512_S512x512 : S1x512.Broadcasts S512x512
  iota_S512x512_d0_w32 : S512x512.Iotas .tc 32 [0]
  iota_S512x512_d1_w32 : S512x512.Iotas .tc 32 [1]
  reduces_S512x512_S512 : S512x512.Reduces [1] S512
  shapeCasts_S512_S512x1 : S512.ShapeCasts S512x1
  reduces_S512x1_S1 : S512x1.Reduces [0] S1
  shapeCasts_S1_S1x1 : S1.ShapeCasts S1x1
  shapeCasts_S1x1_S1x1 : S1x1.ShapeCasts S1x1
  shapeCasts_S1x1_S_ : S1x1.ShapeCasts S_
  bcast_S_S8192 : S_.BroadcastsInDim S8192 (![] : Fin 0 → Fin S8192.rank)
  reducesTo_S8192_S_d0 : S8192.ReducesTo [0] S_
  dot_S512x256_S512x256_S512x512_1_1_0_0_n_n_wf : DotDims.WF S512x256 S512x256 S512x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x256.size a ≤ S8192x256.size a
  hwx0_0 : ∀ i : grid0.Coords, EltTy.bits .bf16 = 32 ∨ (Rect.block (s := S8192x256) S512x256.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x256.size a ≤ S8192x256.size a
  hwx0_1 : ∀ i : grid0.Coords, EltTy.bits .bf16 = 32 ∨ (Rect.block (s := S8192x256) S512x256.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1.size a ≤ S8192x1.size a
  hwx0_2 : ∀ i : grid0.Coords, EltTy.bits .f32 = 32 ∨ (Rect.block (s := S8192x1) S512x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x8192.size a
  hwx0_3 : ∀ i : grid0.Coords, EltTy.bits .f32 = 32 ∨ (Rect.block (s := S1x8192) S1x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1.size a ≤ S1x1.size a
  hwx0_4 : ∀ i : grid0.Coords, EltTy.bits .f32 = 32 ∨ (Rect.block (s := S1x1) S1x1.size (cc0_transform_4 i) (hinb0_4 i)).WholeWords (EltTy.packing .f32)

variable [Facts₀]

def dot_S512x256_S512x256_S512x512_1_1_0_0_n_n : DotDims S512x256 S512x256 S512x512 where
  lhsContracting := [1]
  rhsContracting := [1]
  lhsNonContracting := [0]
  rhsNonContracting := [0]
  lhsBatch := []
  rhsBatch := []
  wf := dot_S512x256_S512x256_S512x512_1_1_0_0_n_n_wf

abbrev win0_0 : Pipeline.Window sig grid0 :=
  Pipeline.Window.ofSpec (Memref.whole main_v4) S512x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S512x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S512x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v5) S1x1.size cc0_transform_4 reads0_4 true true 1 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8192x256 : Shape := ⟨2, ![8192, 256]⟩
abbrev S_ : Shape := ⟨0, ![]⟩
abbrev S8192 : Shape := ⟨1, ![8192]⟩
abbrev S256x8192 : Shape := ⟨2, ![256, 8192]⟩
abbrev S8192x8192 : Shape := ⟨2, ![8192, 8192]⟩
abbrev S8192x1 : Shape := ⟨2, ![8192, 1]⟩
abbrev S1x8192 : Shape := ⟨2, ![1, 8192]⟩

abbrev nBuf : Space → Nat
  | .hbm => 41
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S8192x256, .f32⟩
  | .hbm, ⟨2, _⟩ => ⟨S_, .f32⟩
  | .hbm, ⟨3, _⟩ => ⟨S8192, .f32⟩
  | .hbm, ⟨4, _⟩ => ⟨S256x8192, .f32⟩
  | .hbm, ⟨5, _⟩ => ⟨S8192x8192, .f32⟩
  | .hbm, ⟨6, _⟩ => ⟨S8192x1, .f32⟩
  | .hbm, ⟨7, _⟩ => ⟨S1x8192, .f32⟩
  | .hbm, ⟨8, _⟩ => ⟨S8192x8192, .f32⟩
  | .hbm, ⟨9, _⟩ => ⟨S8192x8192, .f32⟩
  | .hbm, ⟨10, _⟩ => ⟨S8192x8192, .f32⟩
  | .hbm, ⟨11, _⟩ => ⟨S_, .f32⟩
  | .hbm, ⟨12, _⟩ => ⟨S8192x8192, .f32⟩
  | .hbm, ⟨13, _⟩ => ⟨S8192x8192, .f32⟩
  | .hbm, ⟨14, _⟩ => ⟨S8192x8192, .f32⟩
  | .hbm, ⟨15, _⟩ => ⟨S_, .f32⟩
  | .hbm, ⟨16, _⟩ => ⟨S8192x8192, .f32⟩
  | .hbm, ⟨17, _⟩ => ⟨S8192x8192, .f32⟩
  | .hbm, ⟨18, _⟩ => ⟨S_, .f32⟩
  | .hbm, ⟨19, _⟩ => ⟨S8192x8192, .f32⟩
  | .hbm, ⟨20, _⟩ => ⟨S8192x8192, .f32⟩
  | .hbm, ⟨21, _⟩ => ⟨S8192x8192, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S8192, .f32⟩
  | .hbm, ⟨28, _⟩ => ⟨S8192, .f32⟩
  | .hbm, ⟨29, _⟩ => ⟨S8192, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_cst_0 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_cst_1 : Ref sig .tc := ⟨.hbm, 15, rfl⟩
abbrev main_v12 : Ref sig .tc := ⟨.hbm, 16, rfl⟩
abbrev main_v13 : Ref sig .tc := ⟨.hbm, 17, rfl⟩
abbrev main_cst_2 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst_3 : Ref sig .tc := ⟨.hbm, 22, rfl⟩
abbrev main_v17 : Ref sig .tc := ⟨.hbm, 23, rfl⟩
abbrev main_cst_4 : Ref sig .tc := ⟨.hbm, 24, rfl⟩
abbrev main_v18 : Ref sig .tc := ⟨.hbm, 25, rfl⟩
abbrev main_cst_5 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_6 : Ref sig .tc := ⟨.hbm, 30, rfl⟩
abbrev main_v22 : Ref sig .tc := ⟨.hbm, 31, rfl⟩
abbrev main_cst_7 : Ref sig .tc := ⟨.hbm, 32, rfl⟩
abbrev main_v23 : Ref sig .tc := ⟨.hbm, 33, rfl⟩
abbrev main_cst_8 : Ref sig .tc := ⟨.hbm, 34, rfl⟩
abbrev main_v24 : Ref sig .tc := ⟨.hbm, 35, rfl⟩
abbrev main_cst_9 : Ref sig .tc := ⟨.hbm, 36, rfl⟩
abbrev main_v25 : Ref sig .tc := ⟨.hbm, 37, rfl⟩
abbrev main_v26 : Ref sig .tc := ⟨.hbm, 38, rfl⟩
abbrev main_cst_10 : Ref sig .tc := ⟨.hbm, 39, rfl⟩
abbrev main_v27 : Ref sig .tc := ⟨.hbm, 40, rfl⟩

abbrev nD : Nat := 1
abbrev τ : Topo := Topo.v7x

variable {F : FTy → Type} [FloatOps F]

class Facts₀ : Prop where
  reducesTo_S8192x256_S8192_d1 : S8192x256.ReducesTo [1] S8192
  h_S_ : 0 < S_.numel
  transposes_S8192x256_S256x8192_1_0 : S8192x256.Transposes [1, 0] S256x8192
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  bcast_S_S8192x8192 : S_.BroadcastsInDim S8192x8192 (![] : Fin 0 → Fin S8192x8192.rank)
  reducesTo_S8192x8192_S_d0_1 : S8192x8192.ReducesTo [0, 1] S_
  bcast_S_S8192 : S_.BroadcastsInDim S8192 (![] : Fin 0 → Fin S8192.rank)
  reducesTo_S8192_S_d0 : S8192.ReducesTo [0] S_
  dot_S8192x256_S256x8192_S8192x8192_1_0_0_1_n_n_wf : DotDims.WF S8192x256 S256x8192 S8192x8192 [1] [0] [0] [1] [] []

variable [Facts₀]

def dot_S8192x256_S256x8192_S8192x8192_1_0_0_1_n_n : DotDims S8192x256 S256x8192 S8192x8192 where
  lhsContracting := [1]
  rhsContracting := [0]
  lhsNonContracting := [0]
  rhsNonContracting := [1]
  lhsBatch := []
  rhsBatch := []
  wf := dot_S8192x256_S256x8192_S8192x8192_1_0_0_1_n_n_wf

class Facts : Prop extends Facts₀ where

variable [Facts]
-- ==== Proof.KI.Kit.lean ====
/-
  What the per-case runs of the kernel body and the frame are stated over: the buffers as the region finds them (the
  host operations before the call have run), each window's block at a grid point read off its array, the two branch
  conditions of the body in closed form over the grid, and the staging memrefs the pipeline passes at a point.
-/
import proofs.«100309_j78932908965970_1_alg».proof.Proof.Gen.KernelIdeal.Launch
import proofs.«100309_j78932908965970_1_alg».proof.Proof.Gen.KernelIdeal.Skeleton
import proofs.«100309_j78932908965970_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers when the region is entered -/

/-- Core `c`'s buffers at launch, as the host operations' valuation; -/
abbrev V₀ (c : Dev nD) : Valuation τ sig (Elt F) := fun b => m ((c : Dev nD), b)
/-- and when the region is entered: the six operations before the call have run (the squared norms, their two
    reshapes, the cast of the input). -/
abbrev V (c : Dev nD) (b : Ref sig .tc) : Buf (Elt F) ((c : Thread nD τ).loc b) := StableHlo.after hostOps0 (V₀ m c) b

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The body's two branches, decided over the grid -/

/-- The first branch's condition (reset the running total), from the grid coordinates: both are zero. -/
abbrev cFirst (i : grid0.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1
/-- It holds at the first point only. -/
theorem hcFirst : ∀ t : Fin cfg0.N, cFirst (grid0.coords t) ↔ t.val = 0 :=
  (by decide +kernel : ∀ t : Fin grid0.N, cFirst (grid0.coords t) ↔ t.val = 0)

/-- The second branch's condition (divide the total by the number of pairs): both coordinates are the last. -/
abbrev cLast (i : grid0.Coords) : Prop :=
  (Scalar.cmpi .ne (Scalar.extui (Scalar.andi (Scalar.cmpi .eq (BitVec.ofNat 32 (i 0).val) 15#32) (Scalar.cmpi .eq (BitVec.ofNat 32 (i 1).val) 15#32))) 0#32) = 1#1
/-- It holds at the last point only. -/
theorem hcLast : ∀ t : Fin cfg0.N, cLast (grid0.coords t) ↔ t.val = 255 :=
  (by decide +kernel : ∀ t : Fin grid0.N, cLast (grid0.coords t) ↔ t.val = 255)

/-! ## The staging memrefs at a point -/

abbrev ms0 (t : Fin cfg0.N) : Memref sig .tc .vmem S512x256 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S512x256 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S512x1 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x512 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x1 .f32 := win0_4.stage (cfg0.slots t 4)
abbrev hs4 (t : Fin cfg0.N) : (ms4 t).IsWhole := hstage0_4 ((cfg0.slots t 4).cast nbuf0_4)

/-- One staging buffer of the output window, through which its contents are stated. -/
abbrev VO : View sig .tc .vmem S1x1 .f32 := (Memref.whole cc0_stg4_0 : Memref sig .tc .vmem S1x1 .f32).view

end Cert.KernelIdeal.Hand

end
-- ==== Proof.KI.RunA.lean ====
/-
  The kernel body at the first grid point: the running total is reset to zero, the block's sum is added, the result is
  stored. Whatever the output's staging buffer held before is overwritten.
-/
import proofs.«100309_j78932908965970_1_alg».proof.Proof.KI.Kit

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The pieces the body's stores leave in the output's staging memref in this case, with the proof that the body
    runs from the inputs at their blocks `x0 … x3` and hands them back as found. -/
noncomputable def runA (c : Dev nD) (i : grid0.Coords) (arg2 : Memref sig .tc .vmem S512x256 .bf16) (harg2 : arg2.IsWhole) (arg3 : Memref sig .tc .vmem S512x256 .bf16) (harg3 : arg3.IsWhole) (arg4 : Memref sig .tc .vmem S512x1 .f32) (harg4 : arg4.IsWhole) (arg5 : Memref sig .tc .vmem S1x512 .f32) (harg5 : arg5.IsWhole) (arg6 : Memref sig .tc .vmem S1x1 .f32) (harg6 : arg6.IsWhole)
    (hF : cFirst i) (hL : ¬cLast i)
    (x0 : Vec F S512x256 .bf16) (x1 : Vec F S512x256 .bf16) (x2 : Vec F S512x1 .f32) (x3 : Vec F S1x512 .f32) :
    { L : List (View.Piece (Elt F) S1x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3
                ∗ (∃ f, arg6.view.loc (c : Thread nD τ) ↦[arg6.view.set]{fullShare} arg6.view.writes (Elt F) f L)) -∗ K ⟨⟩))
          ⊢ wp frame (wpE (defs₀ (F := F)) Variants.none c none) E (cc0__mmd_kernel i arg2 harg2 arg3 harg3 arg4 harg4 arg5 harg5 arg6 harg6) K } := by
  refine ⟨?_, fun E K => ?run⟩
  case run =>
    simp only [cc0__mmd_kernel_eq_skeleton]; unfold cc0__mmd_kernel_skel
    simp only [k0_part1_eq_skeleton]
    unfold owns
    iintro ⟨⟨%f0, %hf0, H0⟩, ⟨%f1, %hf1, H1⟩, ⟨%f2, %hf2, H2⟩, ⟨%f3, %hf3, H3⟩, ⟨%d4, %f4, -, H4⟩, Hk⟩
    obtain rfl := harg2.eq_unread hf0; obtain rfl := harg3.eq_unread hf1; obtain rfl := harg4.eq_unread hf2; obtain rfl := harg5.eq_unread hf3
    sl_exec (disch := first | exact hF | exact hL)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact H4

end Cert.KernelIdeal.Hand

end
-- ==== Proof.KI.RunB.lean ====
/-
  The kernel body at a grid point that is neither the first nor the last: the running total is read, the block's sum
  is added, the result is stored.
-/
import proofs.«100309_j78932908965970_1_alg».proof.Proof.KI.RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The pieces the body's stores leave in the output's staging memref in this case, with the proof that the body
    runs from the inputs at their blocks `x0 … x3` and hands them back as found. -/
noncomputable def runB (c : Dev nD) (i : grid0.Coords) (arg2 : Memref sig .tc .vmem S512x256 .bf16) (harg2 : arg2.IsWhole) (arg3 : Memref sig .tc .vmem S512x256 .bf16) (harg3 : arg3.IsWhole) (arg4 : Memref sig .tc .vmem S512x1 .f32) (harg4 : arg4.IsWhole) (arg5 : Memref sig .tc .vmem S1x512 .f32) (harg5 : arg5.IsWhole) (arg6 : Memref sig .tc .vmem S1x1 .f32) (harg6 : arg6.IsWhole)
    (hF : ¬cFirst i) (hL : ¬cLast i)
    (x0 : Vec F S512x256 .bf16) (x1 : Vec F S512x256 .bf16) (x2 : Vec F S512x1 .f32) (x3 : Vec F S1x512 .f32) (acc : Vec F S1x1 .f32) :
    { L : List (View.Piece (Elt F) S1x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare acc
            ∗ (iprop(owns (c : Thread nD τ) arg2 fullShare x0 ∗ owns (c : Thread nD τ) arg3 fullShare x1 ∗ owns (c : Thread nD τ) arg4 fullShare x2 ∗ owns (c : Thread nD τ) arg5 fullShare x3
                ∗ (∃ f, arg6.view.loc (c : Thread nD τ) ↦[arg6.view.set]{fullShare} arg6.view.writes (Elt F) f L)) -∗ K ⟨⟩))
          ⊢ wp frame (wpE (defs₀ (F := F)) Variants.none c none) E (cc0__mmd_kernel i arg2 harg2 arg3 harg3 arg4 harg4 arg5 harg5 arg6 harg6) K } := by
  refine ⟨?_, fun E K => ?run⟩
  case run =>
    simp only [cc0__mmd_kernel_eq_skeleton]; unfold cc0__mmd_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hF | exact hL)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact H4

end Cert.KernelIdeal.Hand

end
-- ==== Proof.KI.RunC.lean ====
/-
  The kernel body at the last grid point: the block's sum is added to the running total, and the total is divided by
  the number of pairs.
-/
import proofs.«100309_j78932908965970_1_alg».proof.Proof.KI.RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The pieces the body's stores leave in the output's staging memref in this case, with the proof that the body
    runs from the inputs at their blocks `x0 … x3` and hands them back as found. -/
noncomputable def runC (c : Dev nD) (i : grid0.Coords) (arg2 : Memref sig .tc .vmem S512x256 .bf16) (harg2 : arg2.IsWhole) (arg3 : Memref sig .tc .vmem S512x256 .bf16) (harg3 : arg3.IsWhole) (arg4 : Memref sig .tc .vmem S512x1 .f32) (harg4 : arg4.IsWhole) (arg5 : Memref sig .tc .vmem S1x512 .f32) (harg5 : arg5.IsWhole) (arg6 : Memref sig .tc .vmem S1x1 .f32) (harg6 : arg6.IsWhole)
    (hF : ¬cFirst i) (hL : cLast i)
    (x0 : Vec F S512x256 .bf16) (x1 : Vec F S512x256 .bf16) (x2 : Vec F S512x1 .f32) (x3 : Vec F S1x512 .f32) (acc : Vec F S1x1 .f32) :
    { L : List (View.Piece (Elt F) S1x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare acc
            ∗ (iprop(owns (c : Thread nD τ) arg2 fullShare x0 ∗ owns (c : Thread nD τ) arg3 fullShare x1 ∗ owns (c : Thread nD τ) arg4 fullShare x2 ∗ owns (c : Thread nD τ) arg5 fullShare x3
                ∗ (∃ f, arg6.view.loc (c : Thread nD τ) ↦[arg6.view.set]{fullShare} arg6.view.writes (Elt F) f L)) -∗ K ⟨⟩))
          ⊢ wp frame (wpE (defs₀ (F := F)) Variants.none c none) E (cc0__mmd_kernel i arg2 harg2 arg3 harg3 arg4 harg4 arg5 harg5 arg6 harg6) K } := by
  refine ⟨?_, fun E K => ?run⟩
  case run =>
    simp only [cc0__mmd_kernel_eq_skeleton]; unfold cc0__mmd_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hF | exact hL)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact H4

end Cert.KernelIdeal.Hand

end
-- ==== Proof.KI.Data.lean ====
/-
  The pipeline's proof data and the body obligation. What the output's staging buffer holds after the body, case by
  case (the first point resets the running total and adds the block's sum; a middle point adds the block's sum; the
  last point adds it and divides by the number of pairs), and point by point (`outsAt`: the running total, carried
  from each point to the next because the output block is written back only after the last point); the proof data
  (the two windows that read the cast input each hold half of that array's share); the body's triple at every point.
-/
import proofs.«100309_j78932908965970_1_alg».proof.Proof.KI.RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves in the output's staging buffer -/

theorem coverA (c : Dev nD) (i : grid0.Coords) (arg2 : Memref sig .tc .vmem S512x256 .bf16) (harg2 : arg2.IsWhole) (arg3 : Memref sig .tc .vmem S512x256 .bf16) (harg3 : arg3.IsWhole) (arg4 : Memref sig .tc .vmem S512x1 .f32) (harg4 : arg4.IsWhole) (arg5 : Memref sig .tc .vmem S1x512 .f32) (harg5 : arg5.IsWhole) (arg6 : Memref sig .tc .vmem S1x1 .f32) (harg6 : arg6.IsWhole) (hF : cFirst i) (hL : ¬cLast i) (x0 : Vec F S512x256 .bf16) (x1 : Vec F S512x256 .bf16) (x2 : Vec F S512x1 .f32) (x3 : Vec F S1x512 .f32) (y : S1x1.Idx) :
    ∃ pc ∈ (runA c i arg2 harg2 arg3 harg3 arg4 harg4 arg5 harg5 arg6 harg6 hF hL x0 x1 x2 x3).1, y ∈ pc.1.set :=
  View.cover_of_tiledL (runA c i arg2 harg2 arg3 harg3 arg4 harg4 arg5 harg5 arg6 harg6 hF hL x0 x1 x2 x3).1 S1x1.size (by sl_kernel_rfl) y

/-- What the first point leaves: its pieces read back over junk. -/
def outA (c : Dev nD) (i : grid0.Coords) (arg2 : Memref sig .tc .vmem S512x256 .bf16) (harg2 : arg2.IsWhole) (arg3 : Memref sig .tc .vmem S512x256 .bf16) (harg3 : arg3.IsWhole) (arg4 : Memref sig .tc .vmem S512x1 .f32) (harg4 : arg4.IsWhole) (arg5 : Memref sig .tc .vmem S1x512 .f32) (harg5 : arg5.IsWhole) (arg6 : Memref sig .tc .vmem S1x1 .f32) (harg6 : arg6.IsWhole) (hF : cFirst i) (hL : ¬cLast i) (x0 : Vec F S512x256 .bf16) (x1 : Vec F S512x256 .bf16) (x2 : Vec F S512x1 .f32) (x3 : Vec F S1x512 .f32) : Vec F S1x1 .f32 :=
  VO.read (Elt F) (VO.writes (Elt F) VO.junk (runA c i arg2 harg2 arg3 harg3 arg4 harg4 arg5 harg5 arg6 harg6 hF hL x0 x1 x2 x3).1)

theorem coverB (c : Dev nD) (i : grid0.Coords) (arg2 : Memref sig .tc .vmem S512x256 .bf16) (harg2 : arg2.IsWhole) (arg3 : Memref sig .tc .vmem S512x256 .bf16) (harg3 : arg3.IsWhole) (arg4 : Memref sig .tc .vmem S512x1 .f32) (harg4 : arg4.IsWhole) (arg5 : Memref sig .tc .vmem S1x512 .f32) (harg5 : arg5.IsWhole) (arg6 : Memref sig .tc .vmem S1x1 .f32) (harg6 : arg6.IsWhole) (hF : ¬cFirst i) (hL : ¬cLast i) (x0 : Vec F S512x256 .bf16) (x1 : Vec F S512x256 .bf16) (x2 : Vec F S512x1 .f32) (x3 : Vec F S1x512 .f32) (acc : Vec F S1x1 .f32) (y : S1x1.Idx) :
    ∃ pc ∈ (runB c i arg2 harg2 arg3 harg3 arg4 harg4 arg5 harg5 arg6 harg6 hF hL x0 x1 x2 x3 acc).1, y ∈ pc.1.set :=
  View.cover_of_tiledL (runB c i arg2 harg2 arg3 harg3 arg4 harg4 arg5 harg5 arg6 harg6 hF hL x0 x1 x2 x3 acc).1 S1x1.size (by sl_kernel_rfl) y

/-- What a middle point leaves over the running total `acc`. -/
def outB (c : Dev nD) (i : grid0.Coords) (arg2 : Memref sig .tc .vmem S512x256 .bf16) (harg2 : arg2.IsWhole) (arg3 : Memref sig .tc .vmem S512x256 .bf16) (harg3 : arg3.IsWhole) (arg4 : Memref sig .tc .vmem S512x1 .f32) (harg4 : arg4.IsWhole) (arg5 : Memref sig .tc .vmem S1x512 .f32) (harg5 : arg5.IsWhole) (arg6 : Memref sig .tc .vmem S1x1 .f32) (harg6 : arg6.IsWhole) (hF : ¬cFirst i) (hL : ¬cLast i) (x0 : Vec F S512x256 .bf16) (x1 : Vec F S512x256 .bf16) (x2 : Vec F S512x1 .f32) (x3 : Vec F S1x512 .f32) (acc : Vec F S1x1 .f32) : Vec F S1x1 .f32 :=
  VO.read (Elt F) (VO.writes (Elt F) VO.junk (runB c i arg2 harg2 arg3 harg3 arg4 harg4 arg5 harg5 arg6 harg6 hF hL x0 x1 x2 x3 acc).1)

theorem coverC (c : Dev nD) (i : grid0.Coords) (arg2 : Memref sig .tc .vmem S512x256 .bf16) (harg2 : arg2.IsWhole) (arg3 : Memref sig .tc .vmem S512x256 .bf16) (harg3 : arg3.IsWhole) (arg4 : Memref sig .tc .vmem S512x1 .f32) (harg4 : arg4.IsWhole) (arg5 : Memref sig .tc .vmem S1x512 .f32) (harg5 : arg5.IsWhole) (arg6 : Memref sig .tc .vmem S1x1 .f32) (harg6 : arg6.IsWhole) (hF : ¬cFirst i) (hL : cLast i) (x0 : Vec F S512x256 .bf16) (x1 : Vec F S512x256 .bf16) (x2 : Vec F S512x1 .f32) (x3 : Vec F S1x512 .f32) (acc : Vec F S1x1 .f32) (y : S1x1.Idx) :
    ∃ pc ∈ (runC c i arg2 harg2 arg3 harg3 arg4 harg4 arg5 harg5 arg6 harg6 hF hL x0 x1 x2 x3 acc).1, y ∈ pc.1.set :=
  View.cover_of_tiledL (runC c i arg2 harg2 arg3 harg3 arg4 harg4 arg5 harg5 arg6 harg6 hF hL x0 x1 x2 x3 acc).1 S1x1.size (by sl_kernel_rfl) y

/-- What the last point leaves over the running total `acc`. -/
def outC (c : Dev nD) (i : grid0.Coords) (arg2 : Memref sig .tc .vmem S512x256 .bf16) (harg2 : arg2.IsWhole) (arg3 : Memref sig .tc .vmem S512x256 .bf16) (harg3 : arg3.IsWhole) (arg4 : Memref sig .tc .vmem S512x1 .f32) (harg4 : arg4.IsWhole) (arg5 : Memref sig .tc .vmem S1x512 .f32) (harg5 : arg5.IsWhole) (arg6 : Memref sig .tc .vmem S1x1 .f32) (harg6 : arg6.IsWhole) (hF : ¬cFirst i) (hL : cLast i) (x0 : Vec F S512x256 .bf16) (x1 : Vec F S512x256 .bf16) (x2 : Vec F S512x1 .f32) (x3 : Vec F S1x512 .f32) (acc : Vec F S1x1 .f32) : Vec F S1x1 .f32 :=
  VO.read (Elt F) (VO.writes (Elt F) VO.junk (runC c i arg2 harg2 arg3 harg3 arg4 harg4 arg5 harg5 arg6 harg6 hF hL x0 x1 x2 x3 acc).1)

/-! ## The running total, point by point -/

theorem not_last_zero (hn : 0 < cfg0.N) : ¬cLast (grid0.coords ⟨0, hn⟩) := fun h => by
  have h' : (0 : ℕ) = 255 := (hcLast ⟨0, hn⟩).mp h
  exact absurd h' (by decide)

theorem not_first_succ (n : ℕ) (hn : n + 1 < cfg0.N) : ¬cFirst (grid0.coords ⟨n + 1, hn⟩) := fun h =>
  absurd ((hcFirst ⟨n + 1, hn⟩).mp h) (Nat.succ_ne_zero n)

/-- What the output's staging buffer holds after the body at position `n`: the first point's contents, then at each
    later point that point's case over what the point before left (the buffer is not written back in between). -/
def outsAt (c : Dev nD) : (n : ℕ) → n < cfg0.N → Vec F S1x1 .f32
  | 0, hn => outA c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) ((hcFirst ⟨0, hn⟩).mpr rfl) (not_last_zero hn) (iblk m c 0 ⟨0, hn⟩) (iblk m c 1 ⟨0, hn⟩) (iblk m c 2 ⟨0, hn⟩) (iblk m c 3 ⟨0, hn⟩)
  | n + 1, hn =>
    if h : n + 1 = 255 then
      outC c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (not_first_succ n hn) ((hcLast ⟨n + 1, hn⟩).mpr h) (iblk m c 0 ⟨n + 1, hn⟩) (iblk m c 1 ⟨n + 1, hn⟩) (iblk m c 2 ⟨n + 1, hn⟩) (iblk m c 3 ⟨n + 1, hn⟩) (outsAt c n (Nat.lt_of_succ_lt hn))
    else
      outB c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (not_first_succ n hn) (fun hl => h ((hcLast ⟨n + 1, hn⟩).mp hl)) (iblk m c 0 ⟨n + 1, hn⟩) (iblk m c 1 ⟨n + 1, hn⟩) (iblk m c 2 ⟨n + 1, hn⟩) (iblk m c 3 ⟨n + 1, hn⟩) (outsAt c n (Nat.lt_of_succ_lt hn))

theorem outsAt_first (c : Dev nD) (t : Fin cfg0.N) (h0 : t.val = 0) :
    outsAt m c t.val t.isLt = outA c (grid0.coords t) (ms0 t) (hs0 t) (ms1 t) (hs1 t) (ms2 t) (hs2 t) (ms3 t) (hs3 t) (ms4 t) (hs4 t) ((hcFirst t).mpr h0) (fun h => by have := (hcLast t).mp h; omega) (iblk m c 0 t) (iblk m c 1 t) (iblk m c 2 t) (iblk m c 3 t) := by
  obtain ⟨n, hn⟩ := t
  cases n with
  | zero => rfl
  | succ n => exact absurd h0 (Nat.succ_ne_zero n)

theorem outsAt_mid (c : Dev nD) (t : Fin cfg0.N) (h0 : ¬t.val = 0) (h1 : ¬t.val = 255) :
    outsAt m c t.val t.isLt = outB c (grid0.coords t) (ms0 t) (hs0 t) (ms1 t) (hs1 t) (ms2 t) (hs2 t) (ms3 t) (hs3 t) (ms4 t) (hs4 t) (fun h => h0 ((hcFirst t).mp h)) (fun h => h1 ((hcLast t).mp h)) (iblk m c 0 t) (iblk m c 1 t) (iblk m c 2 t) (iblk m c 3 t) (outsAt m c (t.val - 1) (Nat.lt_of_le_of_lt (Nat.sub_le _ _) t.isLt)) := by
  obtain ⟨n, hn⟩ := t
  cases n with
  | zero => exact absurd rfl h0
  | succ n => exact (dif_neg h1).trans rfl

theorem outsAt_last (c : Dev nD) (t : Fin cfg0.N) (h0 : ¬t.val = 0) (h1 : t.val = 255) :
    outsAt m c t.val t.isLt = outC c (grid0.coords t) (ms0 t) (hs0 t) (ms1 t) (hs1 t) (ms2 t) (hs2 t) (ms3 t) (hs3 t) (ms4 t) (hs4 t) (fun h => h0 ((hcFirst t).mp h)) ((hcLast t).mpr h1) (iblk m c 0 t) (iblk m c 1 t) (iblk m c 2 t) (iblk m c 3 t) (outsAt m c (t.val - 1) (Nat.lt_of_le_of_lt (Nat.sub_le _ _) t.isLt)) := by
  obtain ⟨n, hn⟩ := t
  cases n with
  | zero => exact absurd rfl h0
  | succ n => exact (dif_pos h1).trans rfl

/-! ## The proof data -/

/-- The proof data on core `c`: the arrays as the region finds them; after the body each input's buffer at its
    block and the output's at the running total; nothing kept between points besides the windows; the cast input
    is read by two windows, each holding half of its share; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outsAt m c t.val t.isLt
  Φ _ := iprop(emp)
  q w := match w with
    | ⟨0, _⟩ => fullShare.left
    | ⟨1, _⟩ => fullShare.right
    | ⟨2, _⟩ => fullShare
    | ⟨3, _⟩ => fullShare
    | ⟨4, _⟩ => fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = outsAt m c t.val t.isLt := by dsimp only [dats]

/-- Each input's current staging buffer holds its block at every point, fetched there or not: unfetched, the block
    index has not moved and the body left the block in place. -/
theorem before_0 (c : Dev nD) (t : Fin cfg0.N) (d) : (dats m 0 c).before 0 t d = iblk m c 0 t :=
  ((dats m 0 c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin cfg0.N) (d) : (dats m 0 c).before 1 t d = iblk m c 1 t :=
  ((dats m 0 c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t : Fin cfg0.N) (d) : (dats m 0 c).before 2 t d = iblk m c 2 t :=
  ((dats m 0 c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
theorem before_3 (c : Dev nD) (t : Fin cfg0.N) (d) : (dats m 0 c).before 3 t d = iblk m c 3 t :=
  ((dats m 0 c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)

/-- After the first point the output's current staging buffer holds what the body left at the point before: the
    block is written back only after the last point. -/
theorem before_4 (c : Dev nD) (t : Fin cfg0.N) (h0 : ¬t.val = 0) (d) :
    (dats m 0 c).before 4 t d = outsAt m c (t.val - 1) (Nat.lt_of_le_of_lt (Nat.sub_le _ _) t.isLt) := by
  have hN : t.val < 256 := lt_of_lt_of_eq t.isLt (show cfg0.N = 256 from N_0)
  rw [Dat.before_out_kept _ 4 rfl t h0 (Bool.eq_false_iff.mpr fun h => by have := (flush0_4 _).mp h; dsimp only at this; omega)
    (fun _ => rfl) (fun _ _ => rfl)]
  dsimp only [dats]

end Cert.KernelIdeal.Hand

end
-- ==== Proof.KI.Body.lean ====
/-
  The body obligation: at every grid point the body, called on the current staging buffers — each input's at its
  block, the output's at the running total the point before left (at anything, at the first point) — runs and leaves
  the inputs' buffers as found and the output's at the point's running total.
-/
import proofs.«100309_j78932908965970_1_alg».proof.Proof.KI.Data

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t))

set_option maxHeartbeats 1600000 in
/-- The body at any point: the inputs' memrefs hold their blocks; the closed forms say which case the point is in;
    after the first point the output's memref holds what the point before left; so that case's run applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3]
  rw [show (dats m 0 c).Φ t.succ = (dats m 0 c).Φ t.castSucc from rfl,
    show (dats m 0 c).owesAt () t.succ = (dats m 0 c).owesAt () t.castSucc from rfl,
    after_0, after_1, after_2, after_3, after_4]
  have hN : t.val < 256 := lt_of_lt_of_eq t.isLt (show cfg0.N = 256 from N_0)
  by_cases h0 : t.val = 0
  · rw [outsAt_first m c t h0]
    unfold outA
    iintro ⟨HΦ, Ho, ⟨%d0, H0⟩, ⟨%d1, H1⟩, ⟨%d2, H2⟩, ⟨%d3, H3⟩, ⟨%d4, H4⟩⟩
    iapply ((runA c (grid0.coords t) _ _ _ _ _ _ _ _ _ _ ((hcFirst t).mpr h0) (fun h => by have := (hcLast t).mp h; omega) (iblk m c 0 t) (iblk m c 1 t) (iblk m c 2 t) (iblk m c 3 t)).2 Set.univ _)
    isplitl [H0]; · iexact H0
    isplitl [H1]; · iexact H1
    isplitl [H2]; · iexact H2
    isplitl [H3]; · iexact H3
    isplitl [H4]; · iexists _; iexact H4
    iintro ⟨H0, H1, H2, H3, ⟨%e4, H4⟩⟩
    isplitl [HΦ]; · iexact HΦ
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (coverA c _ _ _ _ _ _ _ _ _ _ _ _ _ _ _ _ _ )
  · simp only [before_4 m c t h0]
    by_cases h1 : t.val = 255
    · rw [outsAt_last m c t h0 h1]
      unfold outC
      iintro ⟨HΦ, Ho, ⟨%d0, H0⟩, ⟨%d1, H1⟩, ⟨%d2, H2⟩, ⟨%d3, H3⟩, ⟨%d4, H4⟩⟩
      iapply ((runC c (grid0.coords t) _ _ _ _ _ _ _ _ _ _ (fun h => h0 ((hcFirst t).mp h)) ((hcLast t).mpr h1) (iblk m c 0 t) (iblk m c 1 t) (iblk m c 2 t) (iblk m c 3 t) _).2 Set.univ _)
      isplitl [H0]; · iexact H0
      isplitl [H1]; · iexact H1
      isplitl [H2]; · iexact H2
      isplitl [H3]; · iexact H3
      isplitl [H4]; · iexact H4
      iintro ⟨H0, H1, H2, H3, ⟨%e4, H4⟩⟩
      isplitl [HΦ]; · iexact HΦ
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (coverC c _ _ _ _ _ _ _ _ _ _ _ _ _ _ _ _ _ _ )
    · rw [outsAt_mid m c t h0 h1]
      unfold outB
      iintro ⟨HΦ, Ho, ⟨%d0, H0⟩, ⟨%d1, H1⟩, ⟨%d2, H2⟩, ⟨%d3, H3⟩, ⟨%d4, H4⟩⟩
      iapply ((runB c (grid0.coords t) _ _ _ _ _ _ _ _ _ _ (fun h => h0 ((hcFirst t).mp h)) (fun h => h1 ((hcLast t).mp h)) (iblk m c 0 t) (iblk m c 1 t) (iblk m c 2 t) (iblk m c 3 t) _).2 Set.univ _)
      isplitl [H0]; · iexact H0
      isplitl [H1]; · iexact H1
      isplitl [H2]; · iexact H2
      isplitl [H3]; · iexact H3
      isplitl [H4]; · iexact H4
      iintro ⟨H0, H1, H2, H3, ⟨%e4, H4⟩⟩
      isplitl [HΦ]; · iexact HΦ
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (coverB c _ _ _ _ _ _ _ _ _ _ _ _ _ _ _ _ _ _ )

/-- The library's body obligation, at every point. -/
theorem body_obligation (c : Dev nD) : BodyObligation (dats (F := F) m 0 c) (defs₀ (F := F)) Variants.none () Set.univ := fun t => by
  rw [bigSep_W0, bigSep_W0]
  exact sound_body m c t

end Cert.KernelIdeal.Hand

end
-- ==== Proof.KI.Segs.lean ====
/-
  The first and the last segment of @main — the six host operations before the call and the sixteen after it — and the
  buffers at the region's exit: as the region found them, but the output's array at what the last point wrote back.
  The tail runs within every unscoped buffer except the three arrays the pipeline keeps to itself.
-/
import proofs.«100309_j78932908965970_1_alg».proof.Proof.KI.Body
import Idealize.ShloMosaic.Lib.Pipeline.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The pipeline library's algebra is the whole user component. -/
abbrev EP : Emb (UR sig nD τ) (MT nD τ sig Unit (Elt F) ℕ (UR sig nD τ) ℕ) := emb₁

abbrev 𝒱₀ : Variants := Variants.none
/-- No core owes another anything: no level is assigned. -/
abbrev L : GSem nD τ sig → Finset Unit := fun _ => ∅
abbrev lv : GSem nD τ sig → Unit → ℕ := fun _ _ => 0
/-- No prefetched table. -/
abbrev adm : (p : Fin 1) → (pcfgs (F := F) p).Adm := fun p => (cfgs p).toPCfg_adm

/-- What rides beside the buffers through the segments: the core owes nothing. -/
abbrev R (c : Dev nD) : sProp 𝕄 := iprop(∃ W, owes (c : Thread nD τ) (0 : CellTallies nD τ sig Unit) W)

/-! ## The host operations before the call -/

/-- THE FIRST SEGMENT: the six operations over the core's unscoped buffers. -/
def seg0 : Pipeline.HostSeg (Name := ℕ) (U := UR sig nD τ) (pcfgs (F := F)) defs₀ 𝒱₀ L lv :=
  Pipeline.HostSeg.ofOps _ _ _ _ _ (Pipeline.ucRefs τ sig) hostOps0 (fun op h => Pipeline.sub_ucRefs op ((List.forall_iff_forall_mem.mp hostOps0_sub) op h))
    (by intro _ h; (repeat (cases h with | head => rfl | tail _ h => ?_)); exact nomatch h) (V₀ m) R

/-! ## The buffers at the region's exit, and the host operations after the call -/

/-- The arrays the pipeline keeps to itself at the exit: the two reshaped norms and the cast input (the tail reads
    none of them). -/
def keptRefs : Finset (DevRef τ sig) := {Proc.devRef .tc main_v2, Proc.devRef .tc main_v3, Proc.devRef .tc main_v4}

/-- The buffers the tail runs within: every unscoped buffer but those three. -/
def tailSet : Finset (DevRef τ sig) := Pipeline.ucRefs τ sig \ keptRefs

/-- The output's array after the run: what the last point wrote back. -/
abbrev outArr (c : Dev nD) : Buf (Elt F) ((c : Thread nD τ).loc main_v5) := (dats m 0 c).arrAt 4 cfg0.N

/-- The buffers at the region's exit: as the region found them, the output's array at its final contents. -/
def Vexit (c : Dev nD) : Valuation τ sig (Elt F) :=
  Function.update (StableHlo.after hostOps0 (V₀ m c)) (Proc.devRef .tc main_v5) (outArr m c)

/-- The tail's operations touch none of the kept arrays. -/
theorem hostOps1_tail : ∀ op ∈ (hostOps1 : List (HloOp τ sig (Elt F))), op.bufs ⊆ tailSet := by
  intro op hop
  refine Finset.subset_sdiff.mpr ⟨Pipeline.sub_ucRefs op ((List.forall_iff_forall_mem.mp hostOps1_sub) op hop), ?_⟩
  simp only [List.mem_cons, List.mem_nil_iff, or_false] at hop
  rcases hop with rfl | rfl | rfl | rfl | rfl | rfl | rfl | rfl | rfl | rfl | rfl | rfl | rfl | rfl | rfl | rfl <;>
    simp only [StableHlo.unary_bufs, StableHlo.binary_bufs, StableHlo.nullary_bufs, StableHlo.reshape_bufs, keptRefs] <;>
    decide

/-- THE LAST SEGMENT: the sixteen operations over the output's array and the bypassing buffers. -/
def seg1 : Pipeline.HostSeg (Name := ℕ) (U := UR sig nD τ) (pcfgs (F := F)) defs₀ 𝒱₀ L lv :=
  Pipeline.HostSeg.ofOps _ _ _ _ _ tailSet hostOps1 hostOps1_tail
    (by intro _ h; (repeat (cases h with | head => rfl | tail _ h => ?_)); exact nomatch h) (Vexit m) R

end Cert.KernelIdeal.Hand

end
-- ==== Proof.KI.Launch.lean ====
/-
  The launch: @main as three segments — the six host operations before the call, the kernel region, the sixteen host
  operations after it — and the run. The region is entered from the buffers the first segment leaves: the four arrays
  the windows stage go to the pipeline (the cast input, read by two windows, as two halves of its share), every other
  buffer bypasses the region; at its exit the output's array holds what the last point wrote back, and the last
  segment runs over it and the bypassing buffers.
-/
import proofs.«100309_j78932908965970_1_alg».proof.Proof.KI.Segs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The region -/

/-- The buffers that bypass the region: every unscoped buffer that is no window's array. -/
def restSet : Finset (Ref sig .tc) := (Finset.univ.filter fun b : Ref sig .tc => ¬ b.isScoped) \ Finset.univ.image (Pipeline.arrRef spec0)

theorem tailSet_eq : (tailSet : Finset (DevRef τ sig)) = (insert main_v5 restSet).map ⟨Proc.devRef .tc, Proc.devRef_injective _⟩ := by
  decide +kernel

/-- The tail's buffers at the exit contents: the output's array at what the last point wrote back, the bypassing
    buffers as the region found them. -/
theorem held_tail (c : Dev nD) :
    (StableHlo.held (c : Thread nD τ) tailSet (Vexit m c) : sProp 𝕄)
      = iprop((((c : Thread nD τ).loc main_v5) ↦{fullShare} outArr m c) ∗ Pipeline.unscopedRest spec0 c (V m c)) := by
  have hnot : main_v5 ∉ (restSet : Finset (Ref sig .tc)) := by decide +kernel
  have h5 : Vexit m c (Proc.devRef .tc main_v5) = outArr m c := by
    unfold Vexit; exact Function.update_self ..
  have hr : ∀ b ∈ (restSet : Finset (Ref sig .tc)), Vexit m c (Proc.devRef .tc b) = V m c b := fun b hb => by
    have hne : b ≠ main_v5 := fun e => hnot (e ▸ hb)
    unfold Vexit; exact Function.update_of_ne (StableHlo.devRef_ne_of_ne hne) ..
  unfold StableHlo.held Pipeline.unscopedRest
  rw [tailSet_eq, bigSep_map, bigSep_insert hnot]
  refine congrArg₂ (fun a b : sProp 𝕄 => iprop(a ∗ b)) ?_ ?_
  · exact congrArg (fun v => ((c : Thread nD τ).loc main_v5 ↦{fullShare} v : sProp 𝕄)) h5
  · exact bigSep_congr fun b hb => congrArg (fun v => ((c : Thread nD τ).loc b ↦{fullShare} v : sProp 𝕄)) (hr b hb)

/-- The distinct buffers behind the windows' arrays, one by one. -/
theorem arrBufs_eq (c : Dev nD) (Vv : (b : Ref sig .tc) → Buf (Elt F) ((c : Thread nD τ).loc b)) :
    (Pipeline.arrBufs (Ix := Unit) (Name := ℕ) (U := UR sig nD τ) (Lvl := ℕ) spec0 c Vv : sProp 𝕄)
      = iprop((((c : Thread nD τ).loc main_v4) ↦{fullShare} Vv main_v4) ∗ (((c : Thread nD τ).loc main_v2) ↦{fullShare} Vv main_v2)
          ∗ (((c : Thread nD τ).loc main_v3) ↦{fullShare} Vv main_v3) ∗ (((c : Thread nD τ).loc main_v5) ↦{fullShare} Vv main_v5)) := by
  unfold Pipeline.arrBufs
  rw [show Finset.univ.image (Pipeline.arrRef spec0) = insert main_v4 (insert main_v2 (insert main_v3 {main_v5})) from by decide,
    bigSep_insert (by decide), bigSep_insert (by decide), bigSep_insert (by decide), BI.bigSep_singleton]
  rfl

/-- The pipeline's arrays, window by window: the two windows on the cast input hold a half of its share each. -/
theorem arrays_eq' (c : Dev nD) (Fv : (w : Fin cfg0.W) → Buf (Elt F) ((cfg0.win w).arr.view.loc (c : Thread nD τ))) :
    ((dats m 0 c).arrays Fv : sProp 𝕄)
      = iprop((((c : Thread nD τ).loc main_v4) ↦{fullShare.left} Fv 0) ∗ (((c : Thread nD τ).loc main_v4) ↦{fullShare.right} Fv 1)
          ∗ (((c : Thread nD τ).loc main_v2) ↦{fullShare} Fv 2) ∗ (((c : Thread nD τ).loc main_v3) ↦{fullShare} Fv 3)
          ∗ (((c : Thread nD τ).loc main_v5) ↦{fullShare} Fv 4)) := by
  unfold Pipeline.Dat.arrays
  rw [bigSep_W0]
  simp only [(arr_whole0 0).set_eq_univ, (arr_whole0 1).set_eq_univ, (arr_whole0 2).set_eq_univ, (arr_whole0 3).set_eq_univ, (arr_whole0 4).set_eq_univ]
  rfl

/-- THE REGION: the decided layout, no semaphore of the kernel's own, the body obligation; entered from what the first
    segment left — the four arrays into the pipeline, the cast input's share split between its two windows, everything
    else bypassing —, left with the output's array at its final contents beside the bypassing buffers. -/
def reg0 : Pipeline.RegionSeg (pcfgs (F := F)) adm (dats m) () defs₀ 𝒱₀ L lv 0 where
  win := winFacts₀0
  block_pos := block_pos0
  stage_whole := stage_whole0
  K := PEmpty
  osem := fun k => k.elim
  ho := Pipeline.OwnSemFacts.none _
  hbody c := (body_obligation m c).loose
  hwaits := Pipeline.hwaits_of_owed_zero _ _ _ _ L lv 0 fun _ _ => rfl
  pre c := iprop(StableHlo.held (c : Thread nD τ) (Pipeline.ucRefs τ sig) (StableHlo.after hostOps0 (V₀ m c)) ∗ R c)
  post c := iprop(StableHlo.held (c : Thread nD τ) tailSet (Vexit m c) ∗ R c)
  X c := iprop(emp)
  Y c := iprop(emp)
  Z c := Pipeline.unscopedRest spec0 c (V m c)
  hentry c := by
    rw [show StableHlo.held (c : Thread nD τ) (Pipeline.ucRefs τ sig) (StableHlo.after hostOps0 (V₀ m c)) = unscopedBufs c (V m c) from (Pipeline.unscopedBufs_held c _).symm,
      Pipeline.unscopedBufs_split₀ cfgs 0 winFacts₀0.arr_unscoped c (V m c), arrBufs_eq, arrays_eq']
    iintro ⟨⟨⟨⟨H4, H2, H3, H5⟩, Hr⟩, HO⟩, -, -⟩
    ihave H4' := (pointsTo_share (PosShare.mem_left_op_right fullShare)).1 $$ H4
    icases H4' with ⟨H4l, H4r⟩
    imodintro
    isplitl [H4l H4r H2 H3 H5]
    · isplitl [H4l]; · iexact H4l
      isplitl [H4r]; · iexact H4r
      isplitl [H2]; · iexact H2
      isplitl [H3]; · iexact H3
      iexact H5
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hr
  hin c := by
    rw [show (dats m 0 c).Φ 0 = iprop(emp) from rfl]
    iintro -; iempintro
  hout c := by
    rw [Pipeline.ownSems0_none, scopedRest0_eq]
    iintro -
    isplitr; · iempintro
    isplitr <;> iempintro
  hexit c := by
    rw [arrays_eq', held_tail]
    iintro ⟨⟨-, -, -, -, H5⟩, HO, -, Hr⟩
    imodintro
    isplitr [HO]
    · isplitl [H5]; · iexact H5
      iexact Hr
    · unfold Pipeline.Dat.owesAt Pipeline.owesWithin
      icases HO with ⟨%W, -, HO⟩; iexists W; iexact HO

/-- @main as the list of the three. -/
abbrev segs : List (Pipeline.Seg (pcfgs (F := F)) adm (dats m) () defs₀ 𝒱₀ L lv) := [.host (seg0 m), .region (reg0 m), .host (seg1 m)]

/-! ## The run -/

/-- No host operation writes the argument. -/
theorem arg0_not_written0 : ∀ op ∈ (hostOps0 : List (HloOp τ sig (Elt F))), Proc.devRef .tc main_arg0 ∉ op.writes := by
  intro op hop
  simp only [List.mem_cons, List.mem_nil_iff, or_false] at hop
  rcases hop with rfl | rfl | rfl | rfl | rfl | rfl <;>
    simp only [StableHlo.unary_writes, StableHlo.binary_writes, StableHlo.nullary_writes, StableHlo.reshape_writes, Finset.mem_singleton] <;>
    exact StableHlo.devRef_ne_of_ne (by decide)
theorem arg0_not_written1 : ∀ op ∈ (hostOps1 : List (HloOp τ sig (Elt F))), Proc.devRef .tc main_arg0 ∉ op.writes := by
  intro op hop
  simp only [List.mem_cons, List.mem_nil_iff, or_false] at hop
  rcases hop with rfl | rfl | rfl | rfl | rfl | rfl | rfl | rfl | rfl | rfl | rfl | rfl | rfl | rfl | rfl | rfl <;>
    simp only [StableHlo.unary_writes, StableHlo.binary_writes, StableHlo.nullary_writes, StableHlo.reshape_writes, Finset.mem_singleton] <;>
    exact StableHlo.devRef_ne_of_ne (by decide)

/-- The argument ends as launched. -/
theorem arg0_kept (c : Dev nD) : StableHlo.after hostOps1 (Vexit m c) (Proc.devRef .tc main_arg0) = m ((c : Thread nD τ).loc main_arg0) := by
  rw [StableHlo.after_of_forall_not_mem hostOps1 _ arg0_not_written1]
  unfold Vexit
  rw [Function.update_of_ne (StableHlo.devRef_ne_of_ne (by decide)), StableHlo.after_of_forall_not_mem hostOps0 _ arg0_not_written0]

theorem v15_mem : (Proc.devRef .tc main_v15 : DevRef τ sig) ∈ tailSet := by decide +kernel
theorem arg0_mem : (Proc.devRef .tc main_arg0 : DevRef τ sig) ∈ tailSet := by decide +kernel

/-- What the run ends in, per core: the result at the tail's operations applied to the exit contents, the argument
    as launched. -/
def QY (c : Dev nD) (s : MemSt nD τ sig (Elt F)) : Prop :=
  s.mem ((c : Thread nD τ).loc main_v15) = StableHlo.after hostOps1 (Vexit m c) (Proc.devRef .tc main_v15)
    ∧ s.mem ((c : Thread nD τ).loc main_arg0) = m ((c : Thread nD τ).loc main_arg0)

set_option backward.isDefEq.respectTransparency.types false in
/-- At the compiled mesh, for any float values, from any memory with zero counters: every weakly fair execution of
    @main on the TensorCores terminates, the result buffer holding the tail's operations applied to the buffers at the
    region's exit, the argument unchanged. -/
theorem run_main : θ_run defs (onTc (τ := τ) (main (F := F))) ⟨m, fun _ => 0, ρ⟩ (fun r => ∀ c : Dev nD, QY m c r.2) :=
  Pipeline.θ_run_regions_kit (pcfgs (F := F)) adm (dats m) () cellOf_inj EP defs₀ 𝒱₀ L lv m ρ main (segs m)
    (fun c Q => by rw [main_segs adm (dats m) () 𝒱₀ L lv (seg0 m) (seg1 m) (reg0 m) rfl rfl c])
    (by simp only [Pipeline.Seg.pipes_host, Pipeline.Seg.pipes_region, Pipeline.Seg.pipes_nil]; decide) (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V₀ m c) ∗ R c))
    (Tₙ := fun c => StableHlo.held (c : Thread nD τ) tailSet (StableHlo.after hostOps1 (Vexit m c)))
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (V₀ m c) from Pipeline.unscopedBufs_held c (V₀ m c)]
      iintro ⟨⟨Hh, -, HO, -, -, -⟩, -⟩
      imodintro
      isplitl [Hh]; · iexact Hh
      iexists ∅; iexact HO)
    (QY := QY m)
    (hfin := fun c s' => by
      unfold StableHlo.held
      iintro ⟨Hh, HSI⟩
      ihave Hr := (pointsTo_read_all tailSet (fun b => ((c : Thread nD τ).1, b)) (StableHlo.after hostOps1 (Vexit m c)) s') $$ [Hh HSI]
      · isplitl [Hh] <;> iassumption
      icases Hr with ⟨%h, HSI⟩
      imodintro
      isplitr
      · ipureintro
        exact ⟨h _ v15_mem, (h _ arg0_mem).trans (arg0_kept m c)⟩
      iexact HSI)
    (hQ := fun _ h => h)

end Cert.KernelIdeal.Hand

end
-- ==== Proof.KI.Pieces.lean ====
/-
  What each case of the kernel body leaves in the output's staging buffer, as the body's payload terms.

  * At the first grid point the body stores the zero payload, reads it back, and stores the block's sum added to it.
  * At a middle grid point it reads the running total and stores the block's sum added to it.
  * At the last grid point it does the same, then reads what it has just stored and stores that divided by the number
    of pairs.

  In each case the last store covers the whole one-by-one buffer, so the buffer holds that store's payload; a read of
  an input's staging buffer gives the input's block, and a read of the output's buffer after a store gives that
  store's payload. The statements hold for every float instance.
-/
import proofs.«100309_j78932908965970_1_alg».proof.Proof.KI.Data
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The zero offsets of a one-by-one or two-axis rectangle, as the constant function. -/
private theorem hz : (![0, 0] : Fin 2 → Nat) = fun _ => 0 := funext fun a => by fin_cases a <;> rfl

/-- The first point: the running total is reset to the zero payload, read back, and the block's sum is added. -/
theorem outA_eq (c : Dev nD) (i : grid0.Coords) (arg2 : Memref sig .tc .vmem S512x256 .bf16) (harg2 : arg2.IsWhole) (arg3 : Memref sig .tc .vmem S512x256 .bf16) (harg3 : arg3.IsWhole) (arg4 : Memref sig .tc .vmem S512x1 .f32) (harg4 : arg4.IsWhole) (arg5 : Memref sig .tc .vmem S1x512 .f32) (harg5 : arg5.IsWhole) (arg6 : Memref sig .tc .vmem S1x1 .f32) (harg6 : arg6.IsWhole) (hF : cFirst i) (hL : ¬cLast i) (x0 : Vec F S512x256 .bf16) (x1 : Vec F S512x256 .bf16) (x2 : Vec F S512x1 .f32) (x3 : Vec F S1x512 .f32) :
    outA c i arg2 harg2 arg3 harg3 arg4 harg4 arg5 harg5 arg6 harg6 hF hL x0 x1 x2 x3 = k0_pay1 (k0_pay4 i x0 x1 x2 x3) (k0_pay3 (F := F)) := by
  unfold outA
  rw [View.read_writes_eq_canon _ _ _ (coverA c i arg2 harg2 arg3 harg3 arg4 harg4 arg5 harg5 arg6 harg6 hF hL x0 x1 x2 x3)]
  unfold runA
  dsimp only
  sl_unfold_words
  rw [View.canon_cons_unit_zero (S := S1x1) hz, View.readCov_unit_zero (S := S1x1) _ hz]
  simp only [View.readAt_eq_ld, harg2.read_unread, harg3.read_unread, harg4.read_unread, harg5.read_unread,
    View.ld_unit_zero (S := S512x256) hz, View.ld_unit_zero (S := S512x1) hz, View.ld_unit_zero (S := S1x512) hz]

/-- A middle point: the block's sum is added to the running total `acc`. -/
theorem outB_eq (c : Dev nD) (i : grid0.Coords) (arg2 : Memref sig .tc .vmem S512x256 .bf16) (harg2 : arg2.IsWhole) (arg3 : Memref sig .tc .vmem S512x256 .bf16) (harg3 : arg3.IsWhole) (arg4 : Memref sig .tc .vmem S512x1 .f32) (harg4 : arg4.IsWhole) (arg5 : Memref sig .tc .vmem S1x512 .f32) (harg5 : arg5.IsWhole) (arg6 : Memref sig .tc .vmem S1x1 .f32) (harg6 : arg6.IsWhole) (hF : ¬cFirst i) (hL : ¬cLast i) (x0 : Vec F S512x256 .bf16) (x1 : Vec F S512x256 .bf16) (x2 : Vec F S512x1 .f32) (x3 : Vec F S1x512 .f32) (acc : Vec F S1x1 .f32) :
    outB c i arg2 harg2 arg3 harg3 arg4 harg4 arg5 harg5 arg6 harg6 hF hL x0 x1 x2 x3 acc = k0_pay1 (k0_pay4 i x0 x1 x2 x3) acc := by
  unfold outB
  rw [View.read_writes_eq_canon _ _ _ (coverB c i arg2 harg2 arg3 harg3 arg4 harg4 arg5 harg5 arg6 harg6 hF hL x0 x1 x2 x3 acc)]
  unfold runB
  dsimp only
  sl_unfold_words
  rw [View.canon_unit_zero hz]
  simp only [View.readAt_eq_ld, harg2.read_unread, harg3.read_unread, harg4.read_unread, harg5.read_unread,
    harg6.read_unread, View.ld_unit_zero (S := S512x256) hz, View.ld_unit_zero (S := S512x1) hz,
    View.ld_unit_zero (S := S1x512) hz, View.ld_unit_zero (S := S1x1) hz]

/-- The last point: the block's sum is added to the running total `acc`, and the new total is divided by the number
    of pairs. -/
theorem outC_eq (c : Dev nD) (i : grid0.Coords) (arg2 : Memref sig .tc .vmem S512x256 .bf16) (harg2 : arg2.IsWhole) (arg3 : Memref sig .tc .vmem S512x256 .bf16) (harg3 : arg3.IsWhole) (arg4 : Memref sig .tc .vmem S512x1 .f32) (harg4 : arg4.IsWhole) (arg5 : Memref sig .tc .vmem S1x512 .f32) (harg5 : arg5.IsWhole) (arg6 : Memref sig .tc .vmem S1x1 .f32) (harg6 : arg6.IsWhole) (hF : ¬cFirst i) (hL : cLast i) (x0 : Vec F S512x256 .bf16) (x1 : Vec F S512x256 .bf16) (x2 : Vec F S512x1 .f32) (x3 : Vec F S1x512 .f32) (acc : Vec F S1x1 .f32) :
    outC c i arg2 harg2 arg3 harg3 arg4 harg4 arg5 harg5 arg6 harg6 hF hL x0 x1 x2 x3 acc = k0_pay2 (k0_pay1 (k0_pay4 i x0 x1 x2 x3) acc) := by
  unfold outC
  rw [View.read_writes_eq_canon _ _ _ (coverC c i arg2 harg2 arg3 harg3 arg4 harg4 arg5 harg5 arg6 harg6 hF hL x0 x1 x2 x3 acc)]
  unfold runC
  dsimp only
  sl_unfold_words
  rw [View.canon_cons_unit_zero (S := S1x1) hz, View.readCov_unit_zero (S := S1x1) _ hz]
  simp only [View.readAt_eq_ld, harg2.read_unread, harg3.read_unread, harg4.read_unread, harg5.read_unread,
    harg6.read_unread, View.ld_unit_zero (S := S512x256) hz, View.ld_unit_zero (S := S512x1) hz,
    View.ld_unit_zero (S := S1x512) hz, View.ld_unit_zero (S := S1x1) hz]

end Cert.KernelIdeal.Hand

end
-- ==== Proof.Spec.lean ====
/-
  The mathematics both programs compute, over the extended reals, from the input matrix `z` (8192 rows of 256 entries).

  * `sq z i`     — the squared norm of row `i`: the sum of its squared entries (the sum starts from the float zero);
  * `gram z i j` — the inner product of rows `i` and `j`;
  * `entry z i j` — the Gaussian weight `exp (-1/2 · max (sq i + sq j − 2 · gram i j, 0))` of the pair `(i, j)`;
  * `total z`    — the sum of all 8192 × 8192 weights (started from the float zero).

  The float literals stay the binary words both programs print (`two`, `negHalf`, `fzero`): the same word on both sides
  is never evaluated, and only where an argument needs a literal's value is it opened.
-/
import Idealize.ShloMosaic.PureOps.Ideal
import Idealize.ShloMosaic.PureOps.Ideal.Laws

noncomputable section

namespace Cert.Spec

open Idealize.ShloMosaic

/-- The float literal `0.0`. -/
abbrev fzero : EReal := Ideal.ofBits .f32 0x00000000#32
/-- The float literal `2.0`. -/
abbrev two : EReal := Ideal.ofBits .f32 0x40000000#32
/-- The float literal `-0.5`. -/
abbrev negHalf : EReal := Ideal.ofBits .f32 0xBF000000#32

/-- The squared norm of row `i`. -/
def sq (z : Fin 8192 → Fin 256 → EReal) (i : Fin 8192) : EReal := fzero + ∑ k : Fin 256, z i k * z i k

/-- The inner product of rows `i` and `j`. -/
def gram (z : Fin 8192 → Fin 256 → EReal) (i j : Fin 8192) : EReal := ∑ k : Fin 256, z i k * z j k

/-- The clamped squared distance of rows `i` and `j` by the expansion `|x|² + |y|² − 2 x·y`. -/
def dist (z : Fin 8192 → Fin 256 → EReal) (i j : Fin 8192) : EReal := max (sq z i + sq z j - two * gram z i j) fzero

/-- The Gaussian weight of the pair `(i, j)`. -/
def entry (z : Fin 8192 → Fin 256 → EReal) (i j : Fin 8192) : EReal := Ideal.exp (negHalf * dist z i j)

/-- The sum of all the weights. -/
def total (z : Fin 8192 → Fin 256 → EReal) : EReal := fzero + ∑ i : Fin 8192, ∑ j : Fin 8192, entry z i j

/-! ## The kernel's arrangement of the same sum

The kernel walks a 16 × 16 grid of blocks of 512 × 512 pairs: grid point `t` is block row `t / 16`, block column
`t % 16`. Inside a block it replaces the clamped distance by the literal zero on the global diagonal, sums each row of
weights, sums the row sums, and adds the block's sum to a running total. -/

/-- The global row of local row `r` of block `t`. -/
def row (t : Fin 256) (r : Fin 512) : Fin 8192 := ⟨t.val / 16 * 512 + r.val, by omega⟩
/-- The global column of local column `c` of block `t`. -/
def col (t : Fin 256) (c : Fin 512) : Fin 8192 := ⟨t.val % 16 * 512 + c.val, by omega⟩

/-- The kernel's weight of the pair `(i, j)`: on the diagonal the distance is the literal zero. -/
def kentry (z : Fin 8192 → Fin 256 → EReal) (i j : Fin 8192) : EReal :=
  Ideal.exp (negHalf * (if i.val = j.val then fzero else dist z i j))

/-- The sum of block `t`'s weights as the kernel forms it: row sums, then their sum, each started from the float zero. -/
def blockSum (z : Fin 8192 → Fin 256 → EReal) (t : Fin 256) : EReal :=
  fzero + ∑ r : Fin 512, (fzero + ∑ c : Fin 512, kentry z (row t r) (col t c))

/-- Every entry of the input is a real number. -/
def Finite (z : Fin 8192 → Fin 256 → EReal) : Prop := ∀ i k, ∃ x : ℝ, z i k = (x : EReal)

end Cert.Spec

end
-- ==== Proof.PayloadValue.lean ====
/-
  The kernel body's arithmetic read at an index, over the extended reals.

  The body of the kernel works on one block of 512 × 512 pairs of rows. From the two operand blocks `x0`, `x1` (512 rows of
  256 entries each), the column `x2` of the rows' squared norms and the row `x3` of the columns' squared norms it forms

  * the inner products `∑ k, x0 (r, k) · x1 (c, k)`,
  * the clamped squared distances `max (x2 r + x3 c − 2 · (inner product), 0)`,
  * the weights `exp (−1/2 · d)`, where `d` is the literal zero on the global diagonal (global row `512 · i₀ + r` equal
    to global column `512 · i₁ + c`; both stay below `2 ^ 32`, so the word arithmetic does not wrap) and the clamped
    distance elsewhere,
  * the row sums of the weights, as a column,

  then adds the sum of that column to the running total, and at the last grid point divides the total by a float literal.
  Each of the four theorems below reads one of these values at explicit coordinates.
-/
import proofs.«100309_j78932908965970_1_alg».proof.Proof.Gen.KernelIdeal.Skeleton
import proofs.«100309_j78932908965970_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.PayloadValue

open Cert.KernelIdeal Cert.KernelIdeal.Gen Idealize.ShloMosaic Idealize.ShloMosaic.ValueIdx

/-! ## The small payloads -/

/-- The reset payload is the float zero at its one index. -/
theorem pay3_apply (j : S1x1.Idx) : k0_pay3 (F := Ideal) j = Cert.Spec.fzero := rfl

/-- The closing payload divides the running total by the float literal `2 ^ 26`. -/
theorem pay2_apply (a : Vec Ideal S1x1 .f32) (j : S1x1.Idx) :
    k0_pay2 (F := Ideal) a j = Ideal.div (a j) (Ideal.ofBits .f32 0x4C800000#32) := by
  unfold k0_pay2
  rw [shapeCast_self]
  rfl

/-! ## Layout steps read at coordinates -/

/-- A vector of 512 entries viewed as a column: entry `(r, q)` of the column is entry `r` of the vector. -/
private theorem col_cast_apply {α : Type} (v : S512.Idx → α) (h : S512.ShapeCasts S512x1) (r : Fin 512) (q : Fin 1) :
    shapeCast S512x1 v h (ix2 r q) = v (ix1 r) := by
  refine shapeCast_apply v h (ix2 r q) (ix1 r) ?_
  rw [Shape.rowMajor_val_one, Shape.rowMajor_val_two]
  show r.val = r.val * 1 + q.val
  omega

/-- A one-entry vector viewed as a one-by-one matrix. -/
private theorem unit_cast_apply {α : Type} (v : S1.Idx → α) (h : S1.ShapeCasts S1x1) (j : S1x1.Idx) :
    shapeCast S1x1 v h j = v (ix1 0) := by
  refine shapeCast_apply v h j (ix1 0) ?_
  rw [Shape.rowMajor_val_one, Shape.rowMajor_val_two]
  have h0 : (j 0).val < 1 := (j 0).isLt
  have h1 : (j 1).val < 1 := (j 1).isLt
  show (0 : ℕ) = (j 0).val * 1 + (j 1).val
  omega

/-- The column of row norms spread over the block: entry `(r, c)` reads row `r` of the column. -/
private theorem col_spread_apply {α : Type} (v : S512x1.Idx → α) (h : S512x1.Broadcasts S512x512) (r c : Fin 512) :
    broadcastTo S512x512 v h (ix2 r c) = v (ix2 r 0) := by
  refine broadcastTo_apply v h (ix2 r c) (ix2 r 0) fun a => ?_
  match a with
  | ⟨0, _⟩ => rfl
  | ⟨1, _⟩ => rfl

/-- The row of column norms spread over the block: entry `(r, c)` reads column `c` of the row. -/
private theorem row_spread_apply {α : Type} (v : S1x512.Idx → α) (h : S1x512.Broadcasts S512x512) (r c : Fin 512) :
    broadcastTo S512x512 v h (ix2 r c) = v (ix2 0 c) := by
  refine broadcastTo_apply v h (ix2 r c) (ix2 0 c) fun a => ?_
  match a with
  | ⟨0, _⟩ => rfl
  | ⟨1, _⟩ => rfl

/-- The index over row `r` with column `c` inserted is `(r, c)`. -/
private theorem lift_row (h : S512x512.Reduces [1] S512) (r c : Fin 512) : h.lift (ix1 r) c = ix2 r c := by
  funext a
  apply Fin.ext
  match a with
  | ⟨0, _⟩ => rfl
  | ⟨1, _⟩ => rfl

/-- The index over the one kept entry with row `r` inserted is `(r, 0)`. -/
private theorem lift_col (h : S512x1.Reduces [0] S1) (j : S1.Idx) (r : Fin 512) : h.lift j r = ix2 r 0 := by
  funext a
  apply Fin.ext
  match a with
  | ⟨0, _⟩ => rfl
  | ⟨1, _⟩ =>
    have h0 : (j 0).val < 1 := (j 0).isLt
    show (j 0).val = 0
    omega

/-! ## The running total -/

/-- the block's total added to the running total: a lane-free sum over the 512 row sums, started from the float zero -/
theorem pay1_apply (v37 : FVec Ideal S512x1 .f32) (a : Vec Ideal S1x1 .f32) (j : S1x1.Idx) :
    k0_pay1 (F := Ideal) v37 a j = a j + (Cert.Spec.fzero + ∑ r : Fin 512, v37 (ix2 r 0)) := by
  unfold k0_pay1
  rw [shapeCast_self]
  refine congrArg (a j + ·) ?_
  refine (unit_cast_apply _ _ j).trans ?_
  refine (Ideal.multiReduction_add_single v37 _ _ _ _ (ix1 0)).trans ?_
  have hz : Cert.Spec.fzero = 0 := Ideal.ofBits_zero_f32
  rw [hz, zero_add]
  exact Finset.sum_congr rfl fun r _ => congrArg v37 (lift_col _ _ r)

/-! ## The block of inner products -/

/-- The block of inner products of the rows of the two operand blocks, accumulated into zero. -/
private def gramV (x0 x1 : Vec Ideal S512x256 .bf16) : FVec Ideal S512x512 .f32 :=
  matmul dot_S512x256_S512x256_S512x512_1_1_0_0_n_n none
    (shapeCast S512x256 x0 Facts₀.shapeCasts_S512x256_S512x256 : FVec Ideal S512x256 .bf16)
    (shapeCast S512x256 x1 Facts₀.shapeCasts_S512x256_S512x256 : FVec Ideal S512x256 .bf16)
    (constant (F := Ideal) S512x512 .f32 0x00000000#32)

private theorem lhs_gram_0 (i : S512x512.Idx) (q : dot_S512x256_S512x256_S512x512_1_1_0_0_n_n.contr.Idx) :
    (dot_S512x256_S512x256_S512x512_1_1_0_0_n_n.lhsIdx i q 0).val = (i 0).val := by
  unfold DotDims.lhsIdx
  rw [dif_neg (show ¬(0 : Fin S512x256.rank) ∈ dot_S512x256_S512x256_S512x512_1_1_0_0_n_n.lhsBatch by decide), dif_pos (show (0 : Fin S512x256.rank) ∈ dot_S512x256_S512x256_S512x512_1_1_0_0_n_n.lhsNonContracting by decide)]
  rfl
private theorem lhs_gram_1 (i : S512x512.Idx) (q : dot_S512x256_S512x256_S512x512_1_1_0_0_n_n.contr.Idx) :
    (dot_S512x256_S512x256_S512x512_1_1_0_0_n_n.lhsIdx i q 1).val = (q ⟨0, by decide⟩).val :=
  dot_S512x256_S512x256_S512x512_1_1_0_0_n_n.lhsIdx_val_of_single rfl i q
private theorem rhs_gram_0 (i : S512x512.Idx) (q : dot_S512x256_S512x256_S512x512_1_1_0_0_n_n.contr.Idx) :
    (dot_S512x256_S512x256_S512x512_1_1_0_0_n_n.rhsIdx i q 0).val = (i 1).val := by
  unfold DotDims.rhsIdx
  rw [dif_neg (show ¬(0 : Fin S512x256.rank) ∈ dot_S512x256_S512x256_S512x512_1_1_0_0_n_n.rhsBatch by decide), dif_pos (show (0 : Fin S512x256.rank) ∈ dot_S512x256_S512x256_S512x512_1_1_0_0_n_n.rhsNonContracting by decide)]
  rfl
private theorem rhs_gram_1 (i : S512x512.Idx) (q : dot_S512x256_S512x256_S512x512_1_1_0_0_n_n.contr.Idx) :
    (dot_S512x256_S512x256_S512x512_1_1_0_0_n_n.rhsIdx i q 1).val = (q ⟨0, by decide⟩).val :=
  dot_S512x256_S512x256_S512x512_1_1_0_0_n_n.rhsIdx_val_of_single rfl i q

/-- Entry `(r, c)` of the block of inner products: row `r` of the first operand against row `c` of the second. -/
private theorem gramV_apply (x0 x1 : Vec Ideal S512x256 .bf16) (r c : Fin 512) :
    gramV x0 x1 (ix2 r c) = ∑ k : Fin 256, x0 (ix2 r k) * x1 (ix2 c k) := by
  unfold gramV
  rw [shapeCast_self, shapeCast_self]
  simp only [matmul]
  rw [Ideal.matmul_constant_zero_apply, ← Equiv.sum_comp (ValueIdx.contrEquiv1 dot_S512x256_S512x256_S512x512_1_1_0_0_n_n 256 rfl rfl).symm]
  refine Finset.sum_congr rfl fun k _ => ?_
  have hk := ValueIdx.contrEquiv1_symm_val dot_S512x256_S512x256_S512x512_1_1_0_0_n_n 256 rfl rfl k
  have el : dot_S512x256_S512x256_S512x512_1_1_0_0_n_n.lhsIdx (ix2 r c) ((ValueIdx.contrEquiv1 dot_S512x256_S512x256_S512x512_1_1_0_0_n_n 256 rfl rfl).symm k) = ix2 r k := funext fun a => Fin.ext (by
    match a with
    | ⟨0, _⟩ => exact lhs_gram_0 _ _
    | ⟨1, _⟩ => exact (lhs_gram_1 _ _).trans hk)
  have er : dot_S512x256_S512x256_S512x512_1_1_0_0_n_n.rhsIdx (ix2 r c) ((ValueIdx.contrEquiv1 dot_S512x256_S512x256_S512x512_1_1_0_0_n_n 256 rfl rfl).symm k) = ix2 c k := funext fun a => Fin.ext (by
    match a with
    | ⟨0, _⟩ => exact rhs_gram_0 _ _
    | ⟨1, _⟩ => exact (rhs_gram_1 _ _).trans hk)
  rw [el, er]

/-! ## The clamped squared distances -/

/-- The block of clamped squared distances: row norm plus column norm minus twice the inner product, clamped below at
    the float zero. -/
private def distV (x0 x1 : Vec Ideal S512x256 .bf16) (x2 : Vec Ideal S512x1 .f32) (x3 : Vec Ideal S1x512 .f32) :
    FVec Ideal S512x512 .f32 :=
  maximumf
    (subf
      (addf
        (broadcastTo S512x512 (shapeCast S512x1 x2 Facts₀.shapeCasts_S512x1_S512x1 : FVec Ideal S512x1 .f32)
          Facts₀.broadcasts_S512x1_S512x512)
        (broadcastTo S512x512 (shapeCast S1x512 x3 Facts₀.shapeCasts_S1x512_S1x512 : FVec Ideal S1x512 .f32)
          Facts₀.broadcasts_S1x512_S512x512))
      (mulf (broadcast S512x512 (Scalar.ofBits (F := Ideal) .f32 0x40000000#32)) (gramV x0 x1)))
    (broadcast S512x512 (Scalar.ofBits (F := Ideal) .f32 0x00000000#32))

/-- Entry `(r, c)` of the block of clamped squared distances. -/
private theorem distV_apply (x0 x1 : Vec Ideal S512x256 .bf16) (x2 : Vec Ideal S512x1 .f32) (x3 : Vec Ideal S1x512 .f32)
    (r c : Fin 512) :
    distV x0 x1 x2 x3 (ix2 r c)
      = max (x2 (ix2 r 0) + x3 (ix2 0 c) - Cert.Spec.two * (∑ k : Fin 256, x0 (ix2 r k) * x1 (ix2 c k))) Cert.Spec.fzero := by
  unfold distV
  rw [shapeCast_self, shapeCast_self, maximumf_apply, subf_apply, addf_apply, mulf_apply, broadcast_apply, broadcast_apply,
    col_spread_apply, row_spread_apply, gramV_apply]
  rfl

/-! ## The diagonal mask -/

/-- Two words below `2 ^ 32` are equal exactly when the numbers are. -/
private theorem word_eq_iff (a b : ℕ) (ha : a < 2 ^ 32) (hb : b < 2 ^ 32) : BitVec.ofNat 32 a = BitVec.ofNat 32 b ↔ a = b := by
  constructor
  · intro h
    have e := congrArg BitVec.toNat h
    rwa [BitVec.toNat_ofNat, BitVec.toNat_ofNat, Nat.mod_eq_of_lt ha, Nat.mod_eq_of_lt hb] at e
  · intro h
    rw [h]

/-- The one-bit word of an equality test is `1` exactly when the two words are equal. -/
private theorem ofBool_beq_eq_one {w : ℕ} (x y : BitVec w) : BitVec.ofBool (x == y) = 1#1 ↔ x = y := by
  by_cases h : x = y
  · simp [h]
  · have hb : (x == y) = false := beq_eq_false_iff_ne.mpr h
    rw [hb]
    exact ⟨fun h' => absurd h' (by decide), fun h' => absurd h' h⟩

/-- The block's diagonal mask: the global row `512 · i₀ + r` against the global column `512 · i₁ + c`, as words. -/
private def diagV (i : grid0.Coords) : IVec S512x512 1 :=
  cmpi .eq
    (addi (broadcast S512x512 (Scalar.muli (BitVec.ofNat 32 (i 0).val) 512#32))
      (iota .tc S512x512 32 [0] Facts₀.iota_S512x512_d0_w32))
    (addi (broadcast S512x512 (Scalar.muli (BitVec.ofNat 32 (i 1).val) 512#32))
      (iota .tc S512x512 32 [1] Facts₀.iota_S512x512_d1_w32))

/-- The mask at `(r, c)` is set exactly when the global row is the global column: the grid has 16 × 16 blocks of 512,
    so neither word wraps. -/
private theorem diagV_apply (i : grid0.Coords) (r c : Fin 512) :
    diagV i (ix2 r c) = 1#1 ↔ (i 0).val * 512 + r.val = (i 1).val * 512 + c.val := by
  have h0 : (i 0).val < 16 := (i 0).isLt
  have h1 : (i 1).val < 16 := (i 1).isLt
  have hr : r.val < 512 := r.isLt
  have hc : c.val < 512 := c.isLt
  have e : diagV i (ix2 r c)
      = BitVec.ofBool (BitVec.ofNat 32 ((i 0).val * 512 + r.val) == BitVec.ofNat 32 ((i 1).val * 512 + c.val)) := by
    unfold diagV
    show BitVec.ofBool ((BitVec.ofNat 32 (i 0).val * 512#32 + iota .tc S512x512 32 [0] Facts₀.iota_S512x512_d0_w32 (ix2 r c))
      == (BitVec.ofNat 32 (i 1).val * 512#32 + iota .tc S512x512 32 [1] Facts₀.iota_S512x512_d1_w32 (ix2 r c))) = _
    rw [iota_single_apply, iota_single_apply, BitVec.ofNat_add, BitVec.ofNat_add, BitVec.ofNat_mul, BitVec.ofNat_mul]
  rw [e, ofBool_beq_eq_one, word_eq_iff _ _ (by omega) (by omega)]

/-! ## The block's weights and their row sums -/

/-- The block of weights: `exp (-1/2 · d)`, with `d` the float zero on the global diagonal and the clamped squared
    distance off it. -/
private def weightV (i : grid0.Coords) (x0 x1 : Vec Ideal S512x256 .bf16) (x2 : Vec Ideal S512x1 .f32)
    (x3 : Vec Ideal S1x512 .f32) : FVec Ideal S512x512 .f32 :=
  exp (mulf (broadcast S512x512 (Scalar.ofBits (F := Ideal) .f32 0xBF000000#32))
    (select (diagV i) (broadcast S512x512 (Scalar.ofBits (F := Ideal) .f32 0x00000000#32)) (distV x0 x1 x2 x3)))

/-- Entry `(r, c)` of the block of weights. -/
private theorem weightV_apply (i : grid0.Coords) (x0 x1 : Vec Ideal S512x256 .bf16) (x2 : Vec Ideal S512x1 .f32)
    (x3 : Vec Ideal S1x512 .f32) (r c : Fin 512) :
    weightV i x0 x1 x2 x3 (ix2 r c)
      = Ideal.exp (Cert.Spec.negHalf *
          (if (i 0).val * 512 + r.val = (i 1).val * 512 + c.val then Cert.Spec.fzero
           else max (x2 (ix2 r 0) + x3 (ix2 0 c) - Cert.Spec.two * (∑ k : Fin 256, x0 (ix2 r k) * x1 (ix2 c k))) Cert.Spec.fzero)) := by
  unfold weightV
  show Ideal.exp (Cert.Spec.negHalf * Scalar.select (diagV i (ix2 r c)) Cert.Spec.fzero (distV x0 x1 x2 x3 (ix2 r c))) = _
  rw [distV_apply]
  by_cases h : (i 0).val * 512 + r.val = (i 1).val * 512 + c.val
  · rw [if_pos h, (diagV_apply i r c).mpr h, select_one]
  · rw [if_neg h, eq_zero_of_ne_one (mt (diagV_apply i r c).mp h), select_zero]

/-- The row payload is the column view of the row sums of the block of weights. -/
private theorem pay4_eq (i : grid0.Coords) (x0 x1 : Vec Ideal S512x256 .bf16) (x2 : Vec Ideal S512x1 .f32)
    (x3 : Vec Ideal S1x512 .f32) :
    k0_pay4 (F := Ideal) i x0 x1 x2 x3
      = shapeCast S512x1
          (multiReduction (F := Ideal) .add [1] S512 (weightV i x0 x1 x2 x3) 0x00000000#32
            Facts₀.reduces_S512x512_S512 (.inl rfl) rfl)
          Facts₀.shapeCasts_S512_S512x1 := rfl

/-- row r of the block: the sum over the block's 512 columns of exp (-1/2 · d), d the literal zero where the global row equals the global column, else max (sqc r + sqr c − 2 · (row r of x0 · row c of x1), 0) -/
theorem pay4_apply (i : grid0.Coords) (x0 x1 : Vec Ideal S512x256 .bf16) (x2 : Vec Ideal S512x1 .f32)
    (x3 : Vec Ideal S1x512 .f32) (r : Fin 512) (q : Fin 1) :
    k0_pay4 (F := Ideal) i x0 x1 x2 x3 (ix2 r q)
      = Cert.Spec.fzero + ∑ c : Fin 512, Ideal.exp (Cert.Spec.negHalf *
          (if (i 0).val * 512 + r.val = (i 1).val * 512 + c.val then Cert.Spec.fzero
           else max (x2 (ix2 r 0) + x3 (ix2 0 c) - Cert.Spec.two * (∑ k : Fin 256, x0 (ix2 r k) * x1 (ix2 c k))) Cert.Spec.fzero)) := by
  have e0 : ∀ S : EReal, Cert.Spec.fzero + S = S := fun S => by
    rw [show Cert.Spec.fzero = 0 from Ideal.ofBits_zero_f32, zero_add]
  rw [pay4_eq, e0]
  refine (col_cast_apply _ _ r q).trans ?_
  refine (Ideal.multiReduction_add_single (weightV i x0 x1 x2 x3) _ _ _ _ (ix1 r)).trans ?_
  refine Finset.sum_congr rfl fun (c : Fin 512) _ => ?_
  exact (congrArg (weightV i x0 x1 x2 x3) (lift_row _ r c)).trans (weightV_apply i x0 x1 x2 x3 r c)

end Cert.KernelIdeal.PayloadValue

end
-- ==== Proof.BlockValue.lean ====
/-
  What each input window's block holds at a grid point, at the exact (extended-real) instance, read back to the
  input matrix.

  The grid is 16 × 16: point t is block row t / 16 and block column t % 16. Before the region the host has formed the
  squared norms of the rows (the sum of each row's squares, started from the float zero), reshaped them to a column
  and to a row, and cast the input (at this instance the cast is the identity). So

  * window 0's block at t holds rows 512 (t / 16) … of the input matrix, window 1's block rows 512 (t % 16) …;
  * window 2's block holds the squared norms of the former rows, window 3's block those of the latter.
-/
import proofs.«100309_j78932908965970_1_alg».proof.Proof.KI.Kit
import proofs.«100309_j78932908965970_1_alg».proof.Proof.Spec
import Idealize.ShloMosaic.Lib.ValueIdx
import Idealize.ShloMosaic.Lib.ValueLayout
import Idealize.ShloMosaic.Lib.Pipeline.Value
import Idealize.ShloMosaic.Lib.StableHlo.Run
import Idealize.ShloMosaic.PureOps.Ideal.Laws
set_option maxRecDepth 16384

noncomputable section

namespace Cert.KernelIdeal.BlockValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Hand Idealize.ShloMosaic.ValueIdx

variable (m : (ℓ : Loc nD τ sig) → Buf (Elt Ideal) ℓ)

/-- a grid point as a number below 256 -/
def pt (t : Fin cfg0.N) : Fin 256 := ⟨t.val, lt_of_lt_of_eq t.isLt N_0⟩
/-- the input matrix on core c as a function of row and column -/
def zmat (c : Dev nD) : Fin 8192 → Fin 256 → EReal := fun i k => m ((c : Thread nD τ).loc main_arg0) (ix2 i k)

/-! ## The grid and the index maps -/

/-- Point t of the 16 × 16 grid is block row t / 16, block column t % 16. -/
theorem coords_eq : ∀ t : Fin cfg0.N, (grid0.coords t 0).val = t.val / 16 ∧ (grid0.coords t 1).val = t.val % 16 :=
  (by decide +kernel : ∀ t : Fin grid0.N, (grid0.coords t 0).val = t.val / 16 ∧ (grid0.coords t 1).val = t.val % 16)

/-- The four input windows' block indices at point t: windows 0 and 2 follow the block row, windows 1 and 3 the
    block column; the other axis has the one block. -/
private theorem idx_facts : ∀ t : Fin cfg0.N,
    win0_0.index t (0 : Fin 2) = t.val / 16 ∧ win0_0.index t (1 : Fin 2) = 0
    ∧ win0_1.index t (0 : Fin 2) = t.val % 16 ∧ win0_1.index t (1 : Fin 2) = 0
    ∧ win0_2.index t (0 : Fin 2) = t.val / 16 ∧ win0_2.index t (1 : Fin 2) = 0
    ∧ win0_3.index t (0 : Fin 2) = 0 ∧ win0_3.index t (1 : Fin 2) = t.val % 16 :=
  (by decide +kernel : ∀ t : Fin grid0.N, _)

/-! ## The arrays the host operations wrote before the region -/

/-- The cast input is the input: at this instance the narrowing cast is the identity. -/
private theorem V_v4 (c : Dev nD) :
    (V m c main_v4 : S8192x256.Idx → EReal) = (m ((c : Thread nD τ).loc main_arg0) : S8192x256.Idx → EReal) := by
  dsimp only [V, hostOps0]
  after_results
  rfl

/-- The squared norms: the host's sum along the second axis of the input times itself, started from the float zero. -/
private theorem V_v1 (c : Dev nD) :
    (V m c main_v1 : S8192.Idx → EReal)
      = Host.reduceAdd (F := Ideal) (mulf (m ((c : Thread nD τ).loc main_arg0) : S8192x256.Idx → EReal) (m ((c : Thread nD τ).loc main_arg0)))
          (constant (F := Ideal) S_ .f32 0x00000000#32) reducesTo_S8192x256_S8192_d1 h_S_ := by
  dsimp only [V, hostOps0]
  after_results

/-- The squared norms as a column. -/
private theorem V_v2 (c : Dev nD) :
    (V m c main_v2 : S8192x1.Idx → EReal) = shapeCast S8192x1 (V m c main_v1 : S8192.Idx → EReal) shapeCasts_S8192_S8192x1 := by
  dsimp only [V, hostOps0]
  after_results
  rfl

/-- The squared norms as a row. -/
private theorem V_v3 (c : Dev nD) :
    (V m c main_v3 : S1x8192.Idx → EReal) = shapeCast S1x8192 (V m c main_v1 : S8192.Idx → EReal) shapeCasts_S8192_S1x8192 := by
  dsimp only [V, hostOps0]
  after_results
  rfl

/-- The host's sum of the squared matrix along the second axis, started from the float zero, read at row i. -/
private theorem rowsum_apply (z : S8192x256.Idx → EReal) (i : Fin 8192) :
    Host.reduceAdd (F := Ideal) (mulf (φ := .f32) z z) (constant (F := Ideal) S_ .f32 0x00000000#32) reducesTo_S8192x256_S8192_d1 h_S_ (ix1 i)
      = Cert.Spec.fzero + ∑ k : Fin 256, z (ix2 i k) * z (ix2 i k) := by
  simp only [Host.reduceAdd, Ideal.hostReduceAdd_def]
  rw [Ideal.hostReduceAdd_single reducesTo_S8192x256_S8192_d1 (by decide)]
  refine congrArg (_ + ·) (Finset.sum_congr rfl fun k _ => ?_)
  have e : ∀ j : S8192x256.Idx, j = ix2 i k → mulf (F := Ideal) (φ := .f32) z z j = z (ix2 i k) * z (ix2 i k) :=
    fun j hj => by rw [hj]; rfl
  exact e _ (funext fun a => Fin.ext (by match a with | ⟨0, _⟩ => rfl | ⟨1, _⟩ => rfl))

/-- the squared norms the host tail reads -/
theorem V_v1_apply (c : Dev nD) (i : Fin 8192) : V m c main_v1 (ix1 i) = Cert.Spec.sq (zmat m c) i :=
  (congrFun (V_v1 m c) (ix1 i)).trans (rowsum_apply _ i)

/-- The column of squared norms at an index whose first coordinate is i is the squared norm of row i: in row-major
    order the index (i, 0) of the column is the i-th. -/
private theorem V_v2_apply (c : Dev nD) (j : S8192x1.Idx) (i : Fin 8192) (hj : (j 0).val = i.val) :
    (V m c main_v2 : S8192x1.Idx → EReal) j = Cert.Spec.sq (zmat m c) i := by
  refine (congrFun (V_v2 m c) j).trans ?_
  refine (shapeCast_apply _ shapeCasts_S8192_S8192x1 j (ix1 i) ?_).trans (V_v1_apply m c i)
  rw [Shape.rowMajor_val_two, Shape.rowMajor_val_one]
  have h1 : (j 1).val < 1 := (j 1).isLt
  show i.val = (j 0).val * 1 + (j 1).val
  omega

/-- The row of squared norms at an index whose second coordinate is i is the squared norm of row i: in row-major
    order the index (0, i) of the row is the i-th. -/
private theorem V_v3_apply (c : Dev nD) (j : S1x8192.Idx) (i : Fin 8192) (hj : (j 1).val = i.val) :
    (V m c main_v3 : S1x8192.Idx → EReal) j = Cert.Spec.sq (zmat m c) i := by
  refine (congrFun (V_v3 m c) j).trans ?_
  refine (shapeCast_apply _ shapeCasts_S8192_S1x8192 j (ix1 i) ?_).trans (V_v1_apply m c i)
  rw [Shape.rowMajor_val_two, Shape.rowMajor_val_one]
  have h0 : (j 0).val < 1 := (j 0).isLt
  show i.val = (j 0).val * 8192 + (j 1).val
  omega

/-! ## The blocks

A block's coordinate in its array is the block index times the block's size plus the coordinate inside the block. -/

/-- Window 0's block at t: rows 512 (t / 16) + r of the input matrix. -/
theorem iblk0_apply (c : Dev nD) (t : Fin cfg0.N) (r : Fin 512) (k : Fin 256) :
    iblk m c 0 t (ix2 r k) = zmat m c (Cert.Spec.row (pt t) r) k := by
  obtain ⟨e00, e01, -⟩ := idx_facts t
  unfold iblk
  rw [View.read_apply]
  show (V m c main_v4 : S8192x256.Idx → EReal) _ = _
  refine (congrFun (V_v4 m c) _).trans ?_
  unfold zmat
  refine congrArg _ (funext fun a => Fin.ext ?_)
  match a with
  | ⟨0, _⟩ => show win0_0.index t (0 : Fin 2) * 512 + 1 * r.val = t.val / 16 * 512 + r.val; rw [e00]; omega
  | ⟨1, _⟩ => show win0_0.index t (1 : Fin 2) * 256 + 1 * k.val = k.val; rw [e01]; omega

/-- Window 1's block at t: rows 512 (t % 16) + q of the input matrix. -/
theorem iblk1_apply (c : Dev nD) (t : Fin cfg0.N) (q : Fin 512) (k : Fin 256) :
    iblk m c 1 t (ix2 q k) = zmat m c (Cert.Spec.col (pt t) q) k := by
  obtain ⟨-, -, e10, e11, -⟩ := idx_facts t
  unfold iblk
  rw [View.read_apply]
  show (V m c main_v4 : S8192x256.Idx → EReal) _ = _
  refine (congrFun (V_v4 m c) _).trans ?_
  unfold zmat
  refine congrArg _ (funext fun a => Fin.ext ?_)
  match a with
  | ⟨0, _⟩ => show win0_1.index t (0 : Fin 2) * 512 + 1 * q.val = t.val % 16 * 512 + q.val; rw [e10]; omega
  | ⟨1, _⟩ => show win0_1.index t (1 : Fin 2) * 256 + 1 * k.val = k.val; rw [e11]; omega

/-- Window 2's block at t: the squared norms of rows 512 (t / 16) + r. -/
theorem iblk2_apply (c : Dev nD) (t : Fin cfg0.N) (r : Fin 512) (u : Fin 1) :
    iblk m c 2 t (ix2 r u) = Cert.Spec.sq (zmat m c) (Cert.Spec.row (pt t) r) := by
  obtain ⟨-, -, -, -, e20, e21, -⟩ := idx_facts t
  unfold iblk
  rw [View.read_apply]
  show (V m c main_v2 : S8192x1.Idx → EReal) _ = _
  refine V_v2_apply m c _ _ ?_
  show win0_2.index t (0 : Fin 2) * 512 + 1 * r.val = t.val / 16 * 512 + r.val
  rw [e20]; omega

/-- Window 3's block at t: the squared norms of rows 512 (t % 16) + q. -/
theorem iblk3_apply (c : Dev nD) (t : Fin cfg0.N) (u : Fin 1) (q : Fin 512) :
    iblk m c 3 t (ix2 u q) = Cert.Spec.sq (zmat m c) (Cert.Spec.col (pt t) q) := by
  obtain ⟨-, -, -, -, -, -, e30, e31⟩ := idx_facts t
  unfold iblk
  rw [View.read_apply]
  show (V m c main_v3 : S1x8192.Idx → EReal) _ = _
  refine V_v3_apply m c _ _ ?_
  show win0_3.index t (1 : Fin 2) * 512 + 1 * q.val = t.val % 16 * 512 + q.val
  rw [e31]; omega

end Cert.KernelIdeal.BlockValue

end
-- ==== Proof.Algebra.lean ====
/-
  The algebra of the certificate, over the extended reals and with no program in sight.

  * The two float words the argument has to open: the zero word is `0`, the word of `2.0` is the real `2`.
  * On the diagonal the clamped distance `|x|² + |x|² − 2 x·x` of a row of real numbers is zero, so the kernel's weight
    (which writes the literal zero there) is the reference's weight everywhere.
  * The 16 × 16 grid of 512 × 512 blocks tiles the 8192 × 8192 square of pairs: the sum of the block sums is the sum
    over all pairs.
  * A running total that starts from zero plus the first block's sum and adds one block's sum per grid point ends at
    the whole sum.
-/
import proofs.«100309_j78932908965970_1_alg».proof.Proof.Spec
import Mathlib.Data.EReal.Operations
import Mathlib.Data.Fintype.BigOperators
import Mathlib.Algebra.BigOperators.Group.Finset.Sigma

noncomputable section

namespace Cert.Algebra

open Cert.Spec Idealize.ShloMosaic

/-! ## The two literals -/

/-- The float zero is the extended real `0`. -/
theorem fzero_eq : fzero = 0 := Ideal.ofBits_zero_f32

/-- The float `2.0` is the real number `2`: sign `0`, biased exponent `128`, mantissa `0`. -/
theorem two_eq : two = ((2 : ℝ) : EReal) := by
  show Ideal.ofBits .f32 0x40000000#32 = ((2 : ℝ) : EReal)
  simp [Ideal.ofBits, Ideal.ieee, -EReal.coe_mul]; norm_num

/-! ## The diagonal -/

/-- The inclusion of the reals in the extended reals carries finite sums to finite sums. -/
private theorem coe_sum {ι : Type} (s : Finset ι) (f : ι → ℝ) :
    ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

/-- On the diagonal the clamped distance is the float zero: for real entries the squared norm is a real number s, and s + s − 2·s = 0. -/
theorem dist_diag (z : Fin 8192 → Fin 256 → EReal) (hz : Finite z) (i : Fin 8192) : dist z i i = fzero := by
  choose x hx using hz
  -- The row's sum of squares is the real number `s`.
  have hsum : ∑ k : Fin 256, z i k * z i k = ((∑ k : Fin 256, x i k * x i k : ℝ) : EReal) := by
    rw [coe_sum]
    refine Finset.sum_congr rfl (fun k _ => ?_)
    rw [hx i k, EReal.coe_mul]
  have hsq : sq z i = ((∑ k : Fin 256, x i k * x i k : ℝ) : EReal) := by
    unfold Cert.Spec.sq
    rw [fzero_eq, zero_add, hsum]
  have hgram : gram z i i = ((∑ k : Fin 256, x i k * x i k : ℝ) : EReal) := by
    unfold gram
    exact hsum
  unfold Cert.Spec.dist
  rw [hsq, hgram, two_eq, fzero_eq]
  generalize (∑ k : Fin 256, x i k * x i k : ℝ) = s
  -- `s + s − 2 s = 0` among the reals, and the inclusion keeps sums, products and differences.
  have h0 : (s : EReal) + (s : EReal) - ((2 : ℝ) : EReal) * (s : EReal) = 0 := by
    rw [← EReal.coe_mul, ← EReal.coe_add, ← EReal.coe_sub]
    have : s + s - 2 * s = 0 := by ring
    rw [this, EReal.coe_zero]
  rw [h0, max_self]

/-- So the kernel's weight is the reference's weight. -/
theorem kentry_eq (z : Fin 8192 → Fin 256 → EReal) (hz : Finite z) (i j : Fin 8192) : kentry z i j = entry z i j := by
  unfold kentry entry
  by_cases h : i.val = j.val
  · obtain rfl : i = j := Fin.ext h
    rw [if_pos rfl, dist_diag z hz i]
  · rw [if_neg h]

/-! ## The blocks tile the square -/

/-- A global index is a block index and a local index: `i = a · 512 + r` with `a < 16`, `r < 512`. -/
private def splitIdx : Fin 16 × Fin 512 ≃ Fin 8192 where
  toFun p := ⟨p.1.val * 512 + p.2.val, by omega⟩
  invFun i := (⟨i.val / 512, by omega⟩, ⟨i.val % 512, by omega⟩)
  left_inv := by
    rintro ⟨⟨a, ha⟩, ⟨r, hr⟩⟩
    refine Prod.ext (Fin.ext ?_) (Fin.ext ?_)
    · show (a * 512 + r) / 512 = a
      omega
    · show (a * 512 + r) % 512 = r
      omega
  right_inv := by
    rintro ⟨i, hi⟩
    refine Fin.ext ?_
    show i / 512 * 512 + i % 512 = i
    omega

/-- A grid point is a block row and a block column: `t = a · 16 + b` with `a, b < 16`. -/
private def splitGrid : Fin 16 × Fin 16 ≃ Fin 256 where
  toFun p := ⟨p.1.val * 16 + p.2.val, by omega⟩
  invFun t := (⟨t.val / 16, by omega⟩, ⟨t.val % 16, by omega⟩)
  left_inv := by
    rintro ⟨⟨a, ha⟩, ⟨b, hb⟩⟩
    refine Prod.ext (Fin.ext ?_) (Fin.ext ?_)
    · show (a * 16 + b) / 16 = a
      omega
    · show (a * 16 + b) % 16 = b
      omega
  right_inv := by
    rintro ⟨t, ht⟩
    refine Fin.ext ?_
    show t / 16 * 16 + t % 16 = t
    omega

/-- The global row of local row `r` in the block of grid point `(a, b)` is `a · 512 + r`. -/
private theorem row_split (a b : Fin 16) (r : Fin 512) : row (splitGrid (a, b)) r = splitIdx (a, r) := by
  refine Fin.ext ?_
  show (a.val * 16 + b.val) / 16 * 512 + r.val = a.val * 512 + r.val
  omega

/-- The global column of local column `c` in the block of grid point `(a, b)` is `b · 512 + c`. -/
private theorem col_split (a b : Fin 16) (c : Fin 512) : col (splitGrid (a, b)) c = splitIdx (b, c) := by
  refine Fin.ext ?_
  show (a.val * 16 + b.val) % 16 * 512 + c.val = b.val * 512 + c.val
  omega

/-- Any function of a pair of global indices: summed block by block, it is summed over all pairs. -/
private theorem sum_blocks (g : Fin 8192 → Fin 8192 → EReal) :
    ∑ t : Fin 256, ∑ r : Fin 512, ∑ c : Fin 512, g (row t r) (col t c) = ∑ i : Fin 8192, ∑ j : Fin 8192, g i j := by
  -- Left: a grid point is a pair of block indices.
  rw [← Equiv.sum_comp splitGrid (fun t => ∑ r : Fin 512, ∑ c : Fin 512, g (row t r) (col t c)),
    Fintype.sum_prod_type]
  -- Right: each global index is a block index and a local index.
  rw [← Equiv.sum_comp splitIdx (fun i => ∑ j : Fin 8192, g i j), Fintype.sum_prod_type]
  refine Finset.sum_congr rfl (fun a _ => ?_)
  -- Right, at block row `a`: the sum over `r` of the sum over `(b, c)`; bring the block column `b` to the front.
  have hR : ∀ r : Fin 512, ∑ j : Fin 8192, g (splitIdx (a, r)) j
      = ∑ b : Fin 16, ∑ c : Fin 512, g (splitIdx (a, r)) (splitIdx (b, c)) := by
    intro r
    rw [← Equiv.sum_comp splitIdx (fun j => g (splitIdx (a, r)) j), Fintype.sum_prod_type]
  rw [Finset.sum_congr rfl (fun r _ => hR r), Finset.sum_comm]
  refine Finset.sum_congr rfl (fun b _ => ?_)
  refine Finset.sum_congr rfl (fun r _ => ?_)
  refine Finset.sum_congr rfl (fun c _ => ?_)
  rw [row_split, col_split]

/-- The blocks tile the square: summing block by block, row by row inside a block, is summing over all pairs. (EReal is an additive commutative monoid: no finiteness needed; fzero = 0.) -/
theorem sum_blockSum (z : Fin 8192 → Fin 256 → EReal) (hz : Finite z) : ∑ t : Fin 256, blockSum z t = ∑ i : Fin 8192, ∑ j : Fin 8192, entry z i j := by
  rw [← sum_blocks (entry z)]
  refine Finset.sum_congr rfl (fun t _ => ?_)
  unfold blockSum
  rw [fzero_eq, zero_add]
  refine Finset.sum_congr rfl (fun r _ => ?_)
  rw [zero_add]
  refine Finset.sum_congr rfl (fun c _ => ?_)
  exact kentry_eq z hz _ _

/-! ## The running total -/

/-- The running total: started at the float zero plus block 0's sum, each later point adding its block's sum, it ends at the whole sum. -/
theorem acc_total (z : Fin 8192 → Fin 256 → EReal) (hz : Finite z) (acc : Fin 256 → EReal)
    (h0 : acc 0 = fzero + blockSum z 0)
    (hs : ∀ (t : Fin 256) (ht : t.val + 1 < 256), acc ⟨t.val + 1, ht⟩ = acc t + blockSum z ⟨t.val + 1, ht⟩) :
    acc 255 = total z := by
  -- The block sums as a sequence over the naturals (zero past the grid).
  let f : ℕ → EReal := fun t => if h : t < 256 then blockSum z ⟨t, h⟩ else 0
  have hf : ∀ (t : ℕ) (h : t < 256), f t = blockSum z ⟨t, h⟩ := fun t h => dif_pos h
  -- After grid point `n` the total is zero plus the first `n + 1` block sums.
  have key : ∀ (n : ℕ) (hn : n < 256), acc ⟨n, hn⟩ = fzero + ∑ t ∈ Finset.range (n + 1), f t := by
    intro n
    induction n with
    | zero =>
      intro hn
      rw [Finset.sum_range_one, hf 0 hn]
      exact h0
    | succ n ih =>
      intro hn
      have hn' : n < 256 := by omega
      rw [hs ⟨n, hn'⟩ hn, ih hn', Finset.sum_range_succ _ (n + 1), hf (n + 1) hn, add_assoc]
  have h255 : acc 255 = fzero + ∑ t ∈ Finset.range 256, f t := key 255 (by omega)
  rw [h255, ← Fin.sum_univ_eq_sum_range f 256]
  unfold total
  rw [← sum_blockSum z hz]
  refine congrArg (fun s => fzero + s) (Finset.sum_congr rfl (fun t _ => ?_))
  exact hf t.val t.isLt

end Cert.Algebra

end
-- ==== Proof.KernelValue.lean ====
/-
  The kernel's running total at the last grid point, over the extended reals.

  At every grid point the body adds the block's sum of weights to the running total; read back to the input matrix the
  block's operands are rows of that matrix and their squared norms, so the amount added is the block sum of the shared
  mathematics. The total starts from the float zero at the first point, is carried from point to point, and at the last
  point is divided by the number of pairs `2 ^ 26`: what the output's staging buffer holds in the end is the sum of all
  the weights divided by that literal.
-/
import proofs.«100309_j78932908965970_1_alg».proof.Proof.KI.Pieces
import proofs.«100309_j78932908965970_1_alg».proof.Proof.PayloadValue
import proofs.«100309_j78932908965970_1_alg».proof.Proof.BlockValue
import proofs.«100309_j78932908965970_1_alg».proof.Proof.Algebra

set_option maxRecDepth 16384

noncomputable section

namespace Cert.KernelIdeal.KernelValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Hand Cert.KernelIdeal.PayloadValue Cert.KernelIdeal.BlockValue Idealize.ShloMosaic.ValueIdx

variable (m : (ℓ : Loc nD τ sig) → Buf (Elt Ideal) ℓ)

/-! ## One block -/

/-- one block's contribution: the body's row sums at point t, summed, are the block's sum -/
theorem block_term (c : Dev nD) (hz : Cert.Spec.Finite (zmat m c)) (t : Fin cfg0.N) (acc : Vec Ideal S1x1 .f32) (j : S1x1.Idx) :
    k0_pay1 (F := Ideal) (k0_pay4 (grid0.coords t) (iblk m c 0 t) (iblk m c 1 t) (iblk m c 2 t) (iblk m c 3 t)) acc j = acc j + Cert.Spec.blockSum (zmat m c) (pt t) := by
  obtain ⟨e0, e1⟩ := coords_eq t
  rw [pay1_apply]
  refine congrArg (acc j + ·) ?_
  unfold Cert.Spec.blockSum
  refine congrArg (Cert.Spec.fzero + ·) (Finset.sum_congr rfl fun r _ => ?_)
  refine (pay4_apply _ _ _ _ _ r 0).trans ?_
  refine congrArg (Cert.Spec.fzero + ·) (Finset.sum_congr rfl fun q _ => ?_)
  unfold Cert.Spec.kentry
  refine congrArg (fun d => Ideal.exp (Cert.Spec.negHalf * d)) ?_
  -- The block's global row meets its global column exactly where the two global indices agree.
  have hcond : ((grid0.coords t 0).val * 512 + r.val = (grid0.coords t 1).val * 512 + q.val)
      ↔ ((Cert.Spec.row (pt t) r).val = (Cert.Spec.col (pt t) q).val) := by
    rw [e0, e1]
    exact Iff.rfl
  by_cases h : (grid0.coords t 0).val * 512 + r.val = (grid0.coords t 1).val * 512 + q.val
  · rw [if_pos h, if_pos (hcond.mp h)]
  · rw [if_neg h, if_neg (mt hcond.mpr h)]
    -- Off the diagonal: the operands are rows of the matrix and their squared norms.
    unfold Cert.Spec.dist Cert.Spec.gram
    rw [iblk2_apply m c t r 0, iblk3_apply m c t 0 q]
    refine congrArg (fun g => max (Cert.Spec.sq (zmat m c) (Cert.Spec.row (pt t) r) + Cert.Spec.sq (zmat m c) (Cert.Spec.col (pt t) q) - Cert.Spec.two * g) Cert.Spec.fzero) ?_
    refine Finset.sum_congr rfl fun k _ => ?_
    rw [iblk0_apply m c t r k, iblk1_apply m c t q k]

/-! ## The running total, point by point -/

/-- The first point leaves the float zero plus block 0's sum. -/
private theorem step_first (c : Dev nD) (hz : Cert.Spec.Finite (zmat m c)) (h0 : 0 < cfg0.N) (j : S1x1.Idx) :
    outsAt (F := Ideal) m c 0 h0 j = Cert.Spec.fzero + Cert.Spec.blockSum (zmat m c) (pt ⟨0, h0⟩) := by
  have e := outsAt_first (F := Ideal) m c ⟨0, h0⟩ rfl
  rw [outA_eq] at e
  refine (congrFun e j).trans ?_
  refine (block_term m c hz ⟨0, h0⟩ _ j).trans ?_
  rw [pay3_apply]

/-- A middle point adds its block's sum to what the point before left. -/
private theorem step_mid (c : Dev nD) (hz : Cert.Spec.Finite (zmat m c)) (n : ℕ) (hn : n + 1 < cfg0.N) (h1 : ¬n + 1 = 255)
    (j : S1x1.Idx) :
    outsAt (F := Ideal) m c (n + 1) hn j
      = outsAt (F := Ideal) m c n (Nat.lt_of_succ_lt hn) j + Cert.Spec.blockSum (zmat m c) (pt ⟨n + 1, hn⟩) := by
  have e := outsAt_mid (F := Ideal) m c ⟨n + 1, hn⟩ (Nat.succ_ne_zero n) h1
  rw [outB_eq] at e
  refine (congrFun e j).trans ?_
  exact block_term m c hz ⟨n + 1, hn⟩ _ j

/-- The last point adds its block's sum to what the point before left and divides by the number of pairs. -/
private theorem step_last (c : Dev nD) (hz : Cert.Spec.Finite (zmat m c)) (h : 255 < cfg0.N) (j : S1x1.Idx) :
    outsAt (F := Ideal) m c 255 h j
      = Ideal.div (outsAt (F := Ideal) m c 254 (Nat.lt_of_succ_lt h) j + Cert.Spec.blockSum (zmat m c) (pt ⟨255, h⟩))
          (Ideal.ofBits .f32 0x4C800000#32) := by
  have e := outsAt_last (F := Ideal) m c ⟨255, h⟩ (show ¬(255 : ℕ) = 0 by decide) rfl
  rw [outC_eq] at e
  refine (congrFun e j).trans ?_
  rw [pay2_apply]
  exact congrArg (fun s => Ideal.div s (Ideal.ofBits .f32 0x4C800000#32)) (block_term m c hz ⟨255, h⟩ _ j)

/-- the last point's contents: the total over the number of pairs -/
theorem outsAt_final (c : Dev nD) (hz : Cert.Spec.Finite (zmat m c)) (h : 255 < cfg0.N) (j : S1x1.Idx) :
    outsAt (F := Ideal) m c 255 h j = Ideal.div (Cert.Spec.total (zmat m c)) (Ideal.ofBits .f32 0x4C800000#32) := by
  have hN : ∀ t : Fin 256, t.val < cfg0.N := fun t => lt_of_lt_of_eq t.isLt N_0.symm
  -- The total before the closing division, at every grid point: what the body leaves there, and at the last point
  -- what the point before left plus the last block's sum.
  let acc : Fin 256 → EReal := fun t =>
    if t.val = 255 then
      outsAt (F := Ideal) m c 254 (Nat.lt_of_succ_lt h) j + Cert.Spec.blockSum (zmat m c) (pt ⟨255, h⟩)
    else outsAt (F := Ideal) m c t.val (hN t) j
  have hacc : acc 255 = Cert.Spec.total (zmat m c) := by
    refine Cert.Algebra.acc_total (zmat m c) hz acc ?_ ?_
    · show (if (0 : Fin 256).val = 255 then _ else outsAt (F := Ideal) m c (0 : Fin 256).val (hN 0) j) = _
      rw [if_neg (by decide)]
      exact step_first m c hz (hN 0) j
    · intro t ht
      have hacc_t : acc t = outsAt (F := Ideal) m c t.val (hN t) j := if_neg (by omega)
      rw [hacc_t]
      by_cases h1 : t.val + 1 = 255
      · have ht254 : t.val = 254 := by omega
        show (if t.val + 1 = 255 then _ else _) = _
        rw [if_pos h1]
        have eb : pt ⟨255, h⟩ = (⟨t.val + 1, ht⟩ : Fin 256) := Fin.ext h1.symm
        rw [eb]
        refine congrArg (· + Cert.Spec.blockSum (zmat m c) ⟨t.val + 1, ht⟩) ?_
        congr 1
        exact ht254.symm
      · show (if t.val + 1 = 255 then _ else outsAt (F := Ideal) m c (t.val + 1) (hN ⟨t.val + 1, ht⟩) j) = _
        rw [if_neg h1]
        exact step_mid m c hz t.val (hN ⟨t.val + 1, ht⟩) h1 j
  rw [step_last m c hz h j]
  refine congrArg (fun s => Ideal.div s (Ideal.ofBits .f32 0x4C800000#32)) ?_
  exact hacc

end Cert.KernelIdeal.KernelValue

end
-- ==== Proof.RefImports.lean ====
/- The reference program's run and its read-at-an-index lemmas, gathered for the modules that bridge the two sides. -/
import proofs.«100309_j78932908965970_1_alg».proof.Proof.Gen.ReferenceIdeal.Run
import proofs.«100309_j78932908965970_1_alg».proof.Proof.Gen.ReferenceIdeal.Read
-- ==== Proof.RefValue.lean ====
/-
  The reference program's stages read as the shared mathematics, at the exact (extended-real) instance.

  * the host's row sums of squares are the squared norms (Cert.Spec.sq);
  * the stage that exponentiates, read at the pair (i, j), is the Gaussian weight (Cert.Spec.entry);
  * the sum of that stage over both axes is the total (Cert.Spec.total).
-/
import proofs.«100309_j78932908965970_1_alg».proof.Proof.RefImports
import proofs.«100309_j78932908965970_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.ReferenceIdeal.RefValue

open Cert.ReferenceIdeal Cert.ReferenceIdeal.Gen Cert.ReferenceIdeal.Read Idealize.ShloMosaic Idealize.ShloMosaic.ValueIdx

/-- the input matrix as a function of row and column -/
def zfun (x : (⟨S8192x256, .f32⟩ : BufTy).Contents (Elt Ideal)) : Fin 8192 → Fin 256 → EReal := fun i k => x (ix2 i k)

/-! ## The index functions of the layout stages, at constructor indices -/

/-- Row i, entry k of the squared matrix. -/
private theorem idx_v1_ix (i : Fin 8192) (k : Fin 256) : idx_main_v1 (ix1 i) k = ix2 i k :=
  funext fun a => Fin.ext (by match a with | ⟨0, _⟩ => rfl | ⟨1, _⟩ => rfl)

/-- The left factor of the product at (i, j) reads row i. -/
private theorem lidx_v3_ix (i j : Fin 8192) (k : Fin 256) : lidx_main_v3 (ix2 i j) k = ix2 i k :=
  funext fun a => Fin.ext (by match a with | ⟨0, _⟩ => rfl | ⟨1, _⟩ => rfl)

/-- The right factor of the product at (i, j) reads the transposed matrix at (k, j). -/
private theorem ridx_v3_ix (i j : Fin 8192) (k : Fin 256) : ridx_main_v3 (ix2 i j) k = ix2 k j :=
  funext fun a => Fin.ext (by match a with | ⟨0, _⟩ => rfl | ⟨1, _⟩ => rfl)

/-- The transposed matrix at (k, j) reads the matrix at (j, k). -/
private theorem idx_v2_ix (k : Fin 256) (j : Fin 8192) : idx_main_v2 (ix2 k j) = ix2 j k :=
  funext fun a => Fin.ext (by match a with | ⟨0, _⟩ => rfl | ⟨1, _⟩ => rfl)

/-- The column of row norms, broadcast along the rows, reads row i. -/
private theorem idx_v4_v6_ix (i j : Fin 8192) : idx_main_v4 (idx_main_v6 (ix2 i j)) = ix1 i :=
  funext fun a => Fin.ext (by match a with | ⟨0, _⟩ => rfl)

/-- The row of row norms, broadcast along the columns, reads row j. -/
private theorem idx_v5_v7_ix (i j : Fin 8192) : idx_main_v5 (idx_main_v7 (ix2 i j)) = ix1 j :=
  funext fun a => Fin.ext (by match a with | ⟨0, _⟩ => rfl)

/-! ## The stages -/

/-- the host's row sums of squares are the squared norms -/
theorem ref_sq (x : (⟨S8192x256, .f32⟩ : BufTy).Contents (Elt Ideal)) (i : Fin 8192) :
    val_main_v1 (F := Ideal) x (ix1 i) = Cert.Spec.sq (zfun x) i := by
  rw [val_main_v1_apply, val_main_cst_apply]
  unfold Cert.Spec.sq
  refine congrArg (_ + ·) (Finset.sum_congr rfl fun k _ => ?_)
  rw [val_main_v0_apply, idx_v1_ix]
  rfl

/-- the product stage at the pair (i, j) is the inner product of rows i and j -/
private theorem ref_gram (x : (⟨S8192x256, .f32⟩ : BufTy).Contents (Elt Ideal)) (i j : Fin 8192) :
    val_main_v3 (F := Ideal) x (ix2 i j) = Cert.Spec.gram (zfun x) i j := by
  rw [val_main_v3_apply]
  unfold Cert.Spec.gram
  refine Finset.sum_congr rfl fun k _ => ?_
  rw [val_main_v2_apply, lidx_v3_ix, ridx_v3_ix, idx_v2_ix]
  rfl

/-- stage %16 at the pair (i, j) is the pair's Gaussian weight -/
theorem ref_entry (x : (⟨S8192x256, .f32⟩ : BufTy).Contents (Elt Ideal)) (i j : Fin 8192) :
    val_main_v16 (F := Ideal) x (ix2 i j) = Cert.Spec.entry (zfun x) i j := by
  rw [val_main_v16_apply, val_main_v15_apply, val_main_v14_apply, val_main_cst_2_apply,
    val_main_v13_apply, val_main_v12_apply, val_main_cst_1_apply,
    val_main_v11_apply, val_main_v8_apply, val_main_v6_apply, val_main_v4_apply,
    val_main_v7_apply, val_main_v5_apply, val_main_v10_apply, val_main_v9_apply, val_main_cst_0_apply,
    idx_v4_v6_ix, idx_v5_v7_ix, ref_sq, ref_sq, ref_gram]
  rfl

/-- stage %17, the sum over both axes, is the total -/
theorem ref_total (x : (⟨S8192x256, .f32⟩ : BufTy).Contents (Elt Ideal)) (j : S_.Idx) :
    val_main_v17 (F := Ideal) x j = Cert.Spec.total (zfun x) := by
  rw [val_main_v17_apply, val_main_cst_3_apply, sum_idx2]
  unfold Cert.Spec.total
  refine congrArg (_ + ·) (Finset.sum_congr rfl fun a _ => Finset.sum_congr rfl fun b _ => ?_)
  exact ref_entry x a b

end Cert.ReferenceIdeal.RefValue

end
-- ==== Proof.TailValue.lean ====
/-
  The kernel program's final result is the reference's, over the extended reals.

  After the call the output's one-by-one array holds what the last grid point wrote back, the sum of all the weights
  divided by the number of pairs; the reference forms the same quotient. Both programs then run the same closing
  operations on that number and on the squared norms of the rows, so their results are the same term.
-/
import proofs.«100309_j78932908965970_1_alg».proof.Proof.KI.Segs
import proofs.«100309_j78932908965970_1_alg».proof.Proof.KernelValue
import proofs.«100309_j78932908965970_1_alg».proof.Proof.RefValue
import Idealize.ShloMosaic.Lib.StableHlo.Run
import Idealize.ShloMosaic.Lib.ValueIdx
import Idealize.ShloMosaic.Lib.ValueLayout
import Idealize.ShloMosaic.Lib.Pipeline.Value

set_option maxRecDepth 16384

noncomputable section

namespace Cert.Proof.TailValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Hand Cert.KernelIdeal.BlockValue Cert.KernelIdeal.KernelValue Idealize.ShloMosaic.ValueIdx

/-! ## The output array after the run -/

/-- The output window's block index is zero on both axes at every point: its one block is the whole array. -/
private theorem out_index : ∀ t : Fin cfg0.N, win0_4.index t (0 : Fin 2) = 0 ∧ win0_4.index t (1 : Fin 2) = 0 :=
  (by decide +kernel : ∀ t : Fin grid0.N, win0_4.index t (0 : Fin 2) = 0 ∧ win0_4.index t (1 : Fin 2) = 0)

section
variable {F : FTy → Type} [FloatOps F]
variable (m : (ℓ : Loc nD τ sig) → Buf (Elt F) ℓ)

/-- Any contents of the one-by-one staging buffer, written back at any point, are the output window's block of the
    same contents taken as the array's: the block at index (0, 0) of the one-by-one array, read through zero offsets, is
    the array. -/
private theorem cut_eq_read (c : Dev nD) (t : Fin cfg0.N) (X : Vec F S1x1 .f32) :
    (cfg0.win 4).cut (grid0.coords t) X
      = ((cfg0.win 4).blk t).view.read (Elt F) (X : Buf (Elt F) ((c : Thread nD τ).loc main_v5)) := by
  obtain ⟨e0, e1⟩ := out_index t
  have hz' : (fun a => win0_4.index t a * main_v5.ty.shape.size a) = fun _ => 0 := funext fun a => by
    match a with
    | ⟨0, _⟩ => show win0_4.index t (0 : Fin 2) * 1 = 0; rw [e0]
    | ⟨1, _⟩ => show win0_4.index t (1 : Fin 2) * 1 = 0; rw [e1]
  exact (Memref.read_access_unit_zero (Elt F) main_v5 hz' (fun a => by rw [congrFun hz' a]; simp)
    (X : Buf (Elt F) ((c : Thread nD τ).loc main_v5))).symm

/-- The one write-back, at the last point, writes the last point's running total. -/
private theorem flushed_eq (c : Dev nD) (h : 255 < cfg0.N) (t : Fin cfg0.N) (hf : (cfg0.win 4).flush t = true) :
    (dats m 0 c).flushed 4 t
      = ((cfg0.win 4).blk t).view.read (Elt F) (outsAt m c 255 h : Buf (Elt F) ((c : Thread nD τ).loc main_v5)) := by
  have hN : cfg0.N = 256 := N_0
  have h255 : t.val = 255 := by have := (flush0_4 t).mp hf; have := t.isLt; omega
  obtain rfl : t = ⟨255, h⟩ := Fin.ext h255
  show (cfg0.win 4).cut (grid0.coords ⟨255, h⟩) ((dats m 0 c).after 4 ⟨255, h⟩) = _
  rw [after_4]
  exact cut_eq_read c ⟨255, h⟩ _

/-- the output array after the run holds the last point's running total -/
theorem outArr_eq (c : Dev nD) (h : 255 < cfg0.N) : outArr m c = outsAt m c 255 h :=
  (dats m 0 c).arrAt_eq_of_cover 4 (outsAt m c 255 h : Buf (Elt F) ((c : Thread nD τ).loc main_v5)) (flushed_eq m c h) fun i =>
    ⟨⟨255, h⟩, (flush0_4 ⟨255, h⟩).mpr rfl, by
      obtain ⟨e0, e1⟩ := out_index ⟨255, h⟩
      show i ∈ ((View.whole main_v5).slice (win0_4.rect ⟨255, h⟩)).set
      rw [View.set_slice_whole, Rect.mem_set_unit]
      intro a
      have h0 : (i 0 : Nat) < 1 := (i 0).isLt
      have h1 : (i 1 : Nat) < 1 := (i 1).isLt
      match a with
      | ⟨0, _⟩ =>
        show win0_4.index ⟨255, h⟩ (0 : Fin 2) * 1 ≤ (i 0 : Nat) ∧ (i 0 : Nat) < win0_4.index ⟨255, h⟩ (0 : Fin 2) * 1 + 1
        rw [e0]; omega
      | ⟨1, _⟩ =>
        show win0_4.index ⟨255, h⟩ (1 : Fin 2) * 1 ≤ (i 1 : Nat) ∧ (i 1 : Nat) < win0_4.index ⟨255, h⟩ (1 : Fin 2) * 1 + 1
        rw [e1]; omega⟩

end

/-! ## The closing operations -/

section
variable (m : (ℓ : Loc nD τ sig) → Buf (Elt Ideal) ℓ)

/-- What both programs do last, as a function of the quotient `a` (the total over the number of pairs) and of the
    squared norms `sqv`: from `a` take twice a small literal times the mean of `exp (−1/4 · squared norm)` over the
    rows, and add the float zero. -/
private def tail (a : (⟨S_, .f32⟩ : BufTy).Contents (Elt Ideal)) (sqv : (⟨S8192, .f32⟩ : BufTy).Contents (Elt Ideal)) :
    (⟨S_, .f32⟩ : BufTy).Contents (Elt Ideal) :=
  addf
    (subf a
      (mulf (constant (F := Ideal) S_ .f32 0x40000000#32)
        (mulf (constant (F := Ideal) S_ .f32 0x00200000#32)
          (Host.divf (F := Ideal)
            (Host.reduceAdd (F := Ideal)
              (Host.exp (F := Ideal)
                (mulf (broadcastInDim S8192 ![] bcast_S_S8192 (constant (F := Ideal) S_ .f32 0xBE800000#32)) sqv))
              (constant (F := Ideal) S_ .f32 0x00000000#32) reducesTo_S8192_S_d0 h_S_)
            (constant (F := Ideal) S_ .f32 0x46000000#32)))))
    (constant (F := Ideal) S_ .f32 0x00000000#32)

/-- The kernel program's result: the closing operations on the output array read as a scalar and on the squared norms
    the first host operations formed. -/
private theorem kernel_tail (c : Dev nD) :
    StableHlo.after hostOps1 (Vexit m c) (Proc.devRef .tc main_v15)
      = tail (shapeCast S_ (outArr m c : S1x1.Idx → EReal) shapeCasts_S1x1_S_) (V m c main_v1 : S8192.Idx → EReal) := by
  show StableHlo.after (hostOps1 (F := Ideal)) (Vexit m c) (Proc.devRef .tc main_v15) = _
  after_results
  have e5 : Vexit m c (Proc.devRef .tc main_v5) = outArr m c := by
    unfold Vexit
    exact Function.update_self ..
  have e1 : Vexit m c (Proc.devRef .tc main_v1) = V m c main_v1 := by
    unfold Vexit
    exact Function.update_of_ne (StableHlo.devRef_ne_of_ne (by decide)) ..
  rw [e5, e1]
  rfl

/-- The reference's result: the same closing operations on its quotient and its squared norms. -/
private theorem ref_tail (z : (⟨S8192x256, .f32⟩ : BufTy).Contents (Elt Ideal)) :
    Cert.ReferenceIdeal.Read.val_main_v27 (F := Ideal) z
      = tail (Cert.ReferenceIdeal.Read.val_main_v18 (F := Ideal) z) (Cert.ReferenceIdeal.Read.val_main_v1 (F := Ideal) z) := rfl

/-- The quotients agree: the output array holds the total over the number of pairs, and so does the reference's
    stage. -/
private theorem quotient_eq (c : Dev nD) (hz : Cert.Spec.Finite (zmat m c)) :
    shapeCast S_ (outArr m c : S1x1.Idx → EReal) shapeCasts_S1x1_S_
      = Cert.ReferenceIdeal.Read.val_main_v18 (F := Ideal) (m ((c : Thread nD τ).loc main_arg0)) := by
  have h255 : 255 < cfg0.N := lt_of_lt_of_eq (by decide) N_0.symm
  funext j
  have hk : (S1x1.rowMajor (ix2 (0 : Fin 1) (0 : Fin 1))).val = (S_.rowMajor j).val := by
    rw [Shape.rowMajor_val_two]
    exact (Shape.rowMajorPi_zero _ j).symm
  refine (shapeCast_apply _ shapeCasts_S1x1_S_ j (ix2 (0 : Fin 1) (0 : Fin 1)) hk).trans ?_
  rw [outArr_eq m c h255, outsAt_final m c hz h255, Cert.ReferenceIdeal.Read.val_main_v18_apply,
    Cert.ReferenceIdeal.RefValue.ref_total, Cert.ReferenceIdeal.Read.val_main_cst_4_apply]
  rfl

/-- The squared norms agree: both programs form them by the same first operations on the input. -/
private theorem norms_eq (c : Dev nD) :
    (V m c main_v1 : S8192.Idx → EReal)
      = Cert.ReferenceIdeal.Read.val_main_v1 (F := Ideal) (m ((c : Thread nD τ).loc main_arg0)) := by
  refine funext fun (i : S8192.Idx) => ?_
  obtain ⟨r, rfl⟩ : ∃ r : Fin 8192, i = ix1 r := ⟨i 0, eq_ix1 i⟩
  exact (V_v1_apply m c r).trans (Cert.ReferenceIdeal.RefValue.ref_sq (m ((c : Thread nD τ).loc main_arg0)) r).symm

/-- the kernel program's result is the reference's -/
theorem result_eq (c : Dev nD) (hz : Cert.Spec.Finite (zmat m c)) :
    StableHlo.after hostOps1 (Vexit m c) (Proc.devRef .tc main_v15) = Cert.ReferenceIdeal.Read.val_main_v27 (F := Ideal) (m ((c : Thread nD τ).loc main_arg0)) := by
  rw [kernel_tail, ref_tail, quotient_eq m c hz, norms_eq]

end

end Cert.Proof.TailValue

end
-- ==== Proof.Finite.lean ====
/-
  The certificate's precondition read as a fact about the input matrix: every entry is a real number.

  The printed predicate compares the absolute value of every entry with the float word of `+∞` and takes the
  conjunction of all the comparisons. Where the conjunction is set every comparison is, so every entry's absolute value
  is below the top of the extended reals; an extended real with that property is neither infinity, hence a real.
-/
import proofs.«100309_j78932908965970_1_alg».proof.Defs
import proofs.«100309_j78932908965970_1_alg».proof.Proof.Gen.Pre_finite_inputs
import proofs.«100309_j78932908965970_1_alg».proof.Proof.BlockValue
import proofs.«100309_j78932908965970_1_alg».proof.Proof.Spec
import Idealize.ShloMosaic.Lib.ReduceAll
import Idealize.ShloMosaic.PureOps.Ideal.Laws

noncomputable section

namespace Cert.Proof.Finite

open Cert.KernelIdeal Idealize.ShloMosaic Idealize.ShloMosaic.ValueIdx

/-- An extended real whose absolute value is below `+∞` is a real number. -/
private theorem real_of_abs_lt_top (x : EReal) (h : max x (-x) < ⊤) : ∃ r : ℝ, x = (r : EReal) := by
  induction x using EReal.rec with
  | bot => simp at h
  | top => simp at h
  | coe r => exact ⟨r, rfl⟩

/-- The float word of `+∞` is the top of the extended reals. -/
private theorem inf_word : Ideal.ofBits .f32 0x7F800000#32 = ⊤ := by simp [Ideal.ofBits, Ideal.ieee]

/-- The scalar shape has one index. -/
private instance : Subsingleton Cert.Pre_finite_inputs.S_.Idx := ⟨fun a b => funext fun d => d.elim0⟩

/-- A strict comparison word that is set says the strict inequality. -/
private theorem lt_of_cmp_olt (a b : EReal) (h : Ideal.cmp .olt a b = 1#1) : a < b := by
  by_contra hn
  have e : Ideal.cmp .olt a b = 0#1 := by
    unfold Ideal.cmp
    dsimp only
    rw [decide_eq_false hn]
    rfl
  rw [e] at h
  exact absurd h (by decide)

/-- Under the certificate's precondition every entry of the input matrix is a real number: the predicate says that
    the absolute value of every entry is below `+∞`. -/
theorem finite_of_pre (m : (ℓ : Loc Cert.KernelIdeal.nD Cert.KernelIdeal.τ Cert.KernelIdeal.sig) → Buf (Elt Ideal) ℓ)
    (h : @Cert.Pre_KernelIdeal Cert.Pre_finite_inputs.Gen.facts m) (c : Dev Cert.KernelIdeal.nD) :
    Cert.Spec.Finite (Cert.KernelIdeal.BlockValue.zmat m c) := by
  intro i k
  have e := congrFun (h c) ValueIdx.ix0
  dsimp only [Cert.Pre_finite_inputs.fn] at e
  have hik := Host.reduce_andi_all _ _ _ _ _ e (ix2 i k)
  have hlt : max (BlockValue.zmat m c i k) (-(BlockValue.zmat m c i k)) < ⊤ := by
    rw [← inf_word]
    exact lt_of_cmp_olt _ _ hik
  exact real_of_abs_lt_top _ hlt

end Cert.Proof.Finite

end
-- ==== Proof.lean ====
/-
  The certificate of the maximum-mean-discrepancy kernel against its jnp reference, over the extended reals.

  Both programs compute, from z : f32[8192, 256],
      total / 8192² − 2 · 2⁻¹²⁸ · (∑ᵢ exp (−|zᵢ|²/4)) / 8192 + 0,
  total the sum over all pairs (i, j) of exp (−1/2 · max (|zᵢ|² + |zⱼ|² − 2 zᵢ·zⱼ, 0)).
  The reference forms the whole 8192 × 8192 Gram matrix on the host. The kernel walks a 16 × 16 grid of 512 × 512
  blocks, the same input array handed to it twice (the row block and the column block), sets the squared distance to
  the literal zero on the global diagonal, adds each block's sum to a running total kept in its (1, 1) output block
  across the grid points, and divides by 8192² at the last point; the rest of the expression is the same host
  operations in both programs.

  Why they agree at the exact instance: a change of float format is the identity; a matrix product into a zero
  accumulator and a lane sum are plain sums; sums over the extended reals may be regrouped freely (block by block, row
  by row), so the kernel's total is the sum over all pairs of ITS weights; and on the diagonal |zᵢ|² + |zᵢ|² − 2 zᵢ·zᵢ
  is s + s − 2s = 0 for the real number s = |zᵢ|² — here, and only here, the precondition (every entry finite) is used:
  at an infinite entry the difference is not zero.

  The three frames: the reference's is its run with the result dropped. The kernel's two (at the word-level instance
  and at the exact one) are one text, generic in the instance: the pipeline's proof data (each input window's buffer
  at its block, the output's at the running total, the cast input's share split between the two windows that read
  it), the body's triple in its three cases (first point, middle points, last point), and @main as three segments —
  host operations, the region, host operations — launched by the library's theorem for a list of segments.
  `preserves` is trivial: the idealization rewrote nothing.
-/
import proofs.«100309_j78932908965970_1_alg».proof.Defs
import proofs.«100309_j78932908965970_1_alg».proof.Proof.Gen.Kernel
import proofs.«100309_j78932908965970_1_alg».proof.Proof.Gen.KernelIdeal
import proofs.«100309_j78932908965970_1_alg».proof.Proof.Gen.ReferenceIdeal
import proofs.«100309_j78932908965970_1_alg».proof.Proof.Gen.Pre_finite_inputs
import proofs.«100309_j78932908965970_1_alg».proof.Proof.KI.Launch
import proofs.«100309_j78932908965970_1_alg».proof.Proof.KB.Launch
import proofs.«100309_j78932908965970_1_alg».proof.Proof.TailValue
import proofs.«100309_j78932908965970_1_alg».proof.Proof.Finite
import proofs.«100309_j78932908965970_1_alg».proof.Proof.RefImports
import Idealize.ShloMosaic.Adequacy
import Idealize.ShloMosaic.Init

noncomputable section

namespace Cert.Proof

open Idealize.ShloMosaic Idealize.ShloMosaic.TcCoe Idealize.SL.Sem

/-- The word-level program runs and leaves its argument as launched. -/
theorem frame_k : @Cert.frame_Kernel Cert.Kernel.Gen.facts Cert.Pre_finite_inputs.Gen.facts := fun m ρ _ =>
  (θ_run Cert.Kernel.defs _ _).mono (fun _ h c => (h c).2) (Cert.Kernel.Hand.run_main (F := Bits) m ρ)

/-- The idealized program runs and leaves its argument as launched. -/
theorem frame_ki : @Cert.frame_KernelIdeal Cert.KernelIdeal.Gen.facts Cert.Pre_finite_inputs.Gen.facts := fun m ρ _ =>
  (θ_run Cert.KernelIdeal.defs _ _).mono (fun _ h c => (h c).2) (Cert.KernelIdeal.Hand.run_main (F := Ideal) m ρ)

/-- The reference runs and leaves its argument as launched: its run with the result dropped. -/
theorem frame_ri : @Cert.frame_ReferenceIdeal Cert.ReferenceIdeal.Gen.facts Cert.Pre_finite_inputs.Gen.facts := fun m ρ _ =>
  (θ_run Cert.ReferenceIdeal.defs _ _).mono (fun _ h c => (h c).2) (Cert.ReferenceIdeal.Value.run (F := Ideal) m ρ)

/-- At the exact instance the two programs, run from memories that agree on the argument, end with the same result:
    the reference's last stage of the argument. The kernel's run ends at the tail's operations applied to the total
    the grid accumulated, which is that stage for finite input. -/
theorem algebraic : @Cert.algebraic_KernelIdeal_ReferenceIdeal Cert.KernelIdeal.Gen.facts Cert.ReferenceIdeal.Gen.facts Cert.Pre_finite_inputs.Gen.facts := by
  intro m ρ m' ρ' hpre hagree
  refine ⟨fun c => Cert.ReferenceIdeal.Read.val_main_v27 (F := Ideal) (m ((c.tc : Thread Cert.KernelIdeal.nD Cert.KernelIdeal.τ).loc Cert.KernelIdeal.main_arg0)), ?_, ?_⟩
  · exact (θ_run Cert.KernelIdeal.defs _ _).mono
      (fun _ h c => ⟨(h c).1.trans (Cert.Proof.TailValue.result_eq m c (Cert.Proof.Finite.finite_of_pre m hpre c)), (h c).2⟩)
      (Cert.KernelIdeal.Hand.run_main (F := Ideal) m ρ)
  · exact (θ_run Cert.ReferenceIdeal.defs _ _).mono
      (fun _ h c => ⟨(h c).1.trans ((Cert.ReferenceIdeal.Read.val_main_v27_eq _).trans
        (congrArg (Cert.ReferenceIdeal.Read.val_main_v27 (F := Ideal)) (hagree c))), (h c).2⟩)
      (Cert.ReferenceIdeal.Value.run (F := Ideal) m' ρ')

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
